-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel

variable [Facts]

def fn {F : FTy → Type} [FloatOps F] (main_arg0 : FVec F S2048x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  main_v3
-- ==== Kernel.lean ====
abbrev S2048x4096 : Shape := ⟨2, ![2048, 4096]⟩
abbrev S1x4096 : Shape := ⟨2, ![1, 4096]⟩
abbrev S2048x512 : Shape := ⟨2, ![2048, 512]⟩
abbrev S1x512 : Shape := ⟨2, ![1, 512]⟩
abbrev S512 : Shape := ⟨1, ![512]⟩
abbrev S4096 : Shape := ⟨1, ![4096]⟩
abbrev S_ : Shape := ⟨0, ![]⟩
abbrev S4096x4096 : Shape := ⟨2, ![4096, 4096]⟩
abbrev S4096x1 : Shape := ⟨2, ![4096, 1]⟩
abbrev S4096x2 : Shape := ⟨2, ![4096, 2]⟩
abbrev S6144x4096 : Shape := ⟨2, ![6144, 4096]⟩

abbrev nBuf : Space → Nat
  | .hbm => 33
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S1x4096, .f32⟩
  | .hbm, ⟨3, _⟩ => ⟨S1x4096, .f32⟩
  | .hbm, ⟨4, _⟩ => ⟨S4096, .f32⟩
  | .hbm, ⟨5, _⟩ => ⟨S4096, .i32⟩
  | .hbm, ⟨6, _⟩ => ⟨S_, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S_, .f32⟩
  | .hbm, ⟨12, _⟩ => ⟨S4096x4096, .f32⟩
  | .hbm, ⟨13, _⟩ => ⟨S4096, .f32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S4096x1, .i32⟩
  | .hbm, ⟨30, _⟩ => ⟨S4096x2, .i32⟩
  | .hbm, ⟨31, _⟩ => ⟨S4096x4096, .f32⟩
  | .hbm, ⟨32, _⟩ => ⟨S6144x4096, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_call0_call0_c : Ref sig .tc := ⟨.hbm, 6, rfl⟩
abbrev main_call0_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2048x512_S2048x512_0_0 : ∀ a, (![0, 0] : Fin 2 → Nat) a + S2048x512.size a ≤ S2048x512.size a
  h_S2048x512 : 0 < S2048x512.numel
  slices_S2048x512_o0_0_S1x512 : S2048x512.Slices ![0, 0] S1x512
  reduces_S2048x512_S512 : S2048x512.Reduces [0] S512
  shapeCasts_S512_S1x512 : S512.ShapeCasts S1x512
  natLt_1_32 : 1 < 32
  broadcasts_S1x512_S2048x512 : S1x512.Broadcasts S2048x512
  inb_S2048x512_S1x512_0_0 : ∀ a, (![0, 0] : Fin 2 → Nat) a + S1x512.size a ≤ S2048x512.size a
  h_S1x512 : 0 < S1x512.numel
  inb_S1x512_S1x512_0_0 : ∀ a, (![0, 0] : Fin 2 → Nat) a + S1x512.size a ≤ S1x512.size a
  shapeCasts_S1x4096_S4096 : S1x4096.ShapeCasts S4096
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S4096x4096 : S_.BroadcastsInDim S4096x4096 (![] : Fin 0 → Fin S4096x4096.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S2048x4096_S4096x4096_S6144x4096_d0 : Shape.Concatenates [S2048x4096, S4096x4096] S6144x4096 0
  scatter_S4096x4096_S4096x2_S4096_n_01_01_1_wf : ScatterDims.WF S4096x4096 S4096x2 S4096 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x4096.size a
  hwx0_0 : ∀ i : grid0.Coords, EltTy.bits .f32 = 32 ∨ (Rect.block (s := S2048x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x4096.size a
  hwx0_1 : ∀ i : grid0.Coords, EltTy.bits .f32 = 32 ∨ (Rect.block (s := S2048x4096) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)

variable [Facts₀]

def scatter_S4096x4096_S4096x2_S4096_n_01_01_1 : ScatterDims S4096x4096 S4096x2 S4096 where
  updateWindowDims := []
  insertedWindowDims := [0, 1]
  scatterDimsToOperandDims := [0, 1]
  indexVectorDim := 1
  wf := scatter_S4096x4096_S4096x2_S4096_n_01_01_1_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S2048x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S2047x4096 : Shape := ⟨2, ![2047, 4096]⟩
abbrev S_ : Shape := ⟨0, ![]⟩
abbrev S4096 : Shape := ⟨1, ![4096]⟩
abbrev S1x4096 : Shape := ⟨2, ![1, 4096]⟩
abbrev S6144x4096 : Shape := ⟨2, ![6144, 4096]⟩
abbrev S1 : Shape := ⟨1, ![1]⟩
abbrev S4096x1 : Shape := ⟨2, ![4096, 1]⟩
abbrev S4096x2 : Shape := ⟨2, ![4096, 2]⟩

abbrev nBuf : Space → Nat
  | .hbm => 99
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2047x4096, .f32⟩
  | .hbm, ⟨2, _⟩ => ⟨S2047x4096, .f32⟩
  | .hbm, ⟨3, _⟩ => ⟨S_, .f32⟩
  | .hbm, ⟨4, _⟩ => ⟨S4096, .f32⟩
  | .hbm, ⟨5, _⟩ => ⟨S1x4096, .f32⟩
  | .hbm, ⟨6, _⟩ => ⟨S4096, .f32⟩
  | .hbm, ⟨7, _⟩ => ⟨S4096, .f32⟩
  | .hbm, ⟨8, _⟩ => ⟨S1x4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .i1⟩
  | .hbm, ⟨15, _⟩ => ⟨S_, .f32⟩
  | .hbm, ⟨16, _⟩ => ⟨S4096, .f32⟩
  | .hbm, ⟨17, _⟩ => ⟨S4096, .i1⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .i1⟩
  | .hbm, ⟨24, _⟩ => ⟨S_, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S1x4096, .f32⟩
  | .hbm, ⟨46, _⟩ => ⟨S4096, .f32⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S1x4096, .f32⟩
  | .hbm, ⟨51, _⟩ => ⟨S4096, .f32⟩
  | .hbm, ⟨52, _⟩ => ⟨S4096, .f32⟩
  | .hbm, ⟨53, _⟩ => ⟨S4096, .f32⟩
  | .hbm, ⟨54, _⟩ => ⟨S2047x4096, .f32⟩
  | .hbm, ⟨55, _⟩ => ⟨S4096, .f32⟩
  | .hbm, ⟨56, _⟩ => ⟨S4096, .f32⟩
  | .hbm, ⟨57, _⟩ => ⟨S1x4096, .f32⟩
  | .hbm, ⟨58, _⟩ => ⟨S2047x4096, .f32⟩
  | .hbm, ⟨59, _⟩ => ⟨S2047x4096, .f32⟩
  | .hbm, ⟨60, _⟩ => ⟨S4096, .i32⟩
  | .hbm, ⟨61, _⟩ => ⟨S_, .i32⟩
  | .hbm, ⟨62, _⟩ => ⟨S_, .i32⟩
  | .hbm, ⟨63, _⟩ => ⟨S4096, .i32⟩
  | .hbm, ⟨64, _⟩ => ⟨S_, .i32⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S4096, .i32⟩
  | .hbm, ⟨69, _⟩ => ⟨S_, .f32⟩
  | .hbm, ⟨70, _⟩ => ⟨S6144x4096, .f32⟩
  | .hbm, ⟨71, _⟩ => ⟨S_, .i32⟩
  | .hbm, ⟨72, _⟩ => ⟨S1, .i32⟩
  | .hbm, ⟨73, _⟩ => ⟨S6144x4096, .f32⟩
  | .hbm, ⟨74, _⟩ => ⟨S_, .i32⟩
  | .hbm, ⟨75, _⟩ => ⟨S1, .i32⟩
  | .hbm, ⟨76, _⟩ => ⟨S6144x4096, .f32⟩
  | .hbm, ⟨77, _⟩ => ⟨S_, .f32⟩
  | .hbm, ⟨78, _⟩ => ⟨S4096, .f32⟩
  | .hbm, ⟨79, _⟩ => ⟨S4096, .f32⟩
  | .hbm, ⟨80, _⟩ => ⟨S4096, .f32⟩
  | .hbm, ⟨81, _⟩ => ⟨S_, .i32⟩
  | .hbm, ⟨82, _⟩ => ⟨S4096, .i32⟩
  | .hbm, ⟨83, _⟩ => ⟨S4096, .i1⟩
  | .hbm, ⟨84, _⟩ => ⟨S_, .i32⟩
  | .hbm, ⟨85, _⟩ => ⟨S4096, .i32⟩
  | .hbm, ⟨86, _⟩ => ⟨S4096, .i32⟩
  | .hbm, ⟨87, _⟩ => ⟨S4096, .i32⟩
  | .hbm, ⟨88, _⟩ => ⟨S_, .i32⟩
  | .hbm, ⟨89, _⟩ => ⟨S4096, .i32⟩
  | .hbm, ⟨90, _⟩ => ⟨S4096, .i1⟩
  | .hbm, ⟨91, _⟩ => ⟨S_, .i32⟩
  | .hbm, ⟨92, _⟩ => ⟨S4096, .i32⟩
  | .hbm, ⟨93, _⟩ => ⟨S4096, .i32⟩
  | .hbm, ⟨94, _⟩ => ⟨S4096, .i32⟩
  | .hbm, ⟨95, _⟩ => ⟨S4096x1, .i32⟩
  | .hbm, ⟨96, _⟩ => ⟨S4096x1, .i32⟩
  | .hbm, ⟨97, _⟩ => ⟨S4096x2, .i32⟩
  | .hbm, ⟨98, _⟩ => ⟨S6144x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call2_call0_c : Ref sig .tc := ⟨.hbm, 61, rfl⟩
abbrev main_call2_call0_v0 : Ref sig .tc := ⟨.hbm, 62, rfl⟩
abbrev main_v48 : Ref sig .tc := ⟨.hbm, 63, rfl⟩
abbrev main_c : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_c_8 : Ref sig .tc := ⟨.hbm, 71, rfl⟩
abbrev main_v54 : Ref sig .tc := ⟨.hbm, 72, rfl⟩
abbrev main_v55 : Ref sig .tc := ⟨.hbm, 73, rfl⟩
abbrev main_c_9 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_11 : Ref sig .tc := ⟨.hbm, 81, rfl⟩
abbrev main_v61 : Ref sig .tc := ⟨.hbm, 82, rfl⟩
abbrev main_v62 : Ref sig .tc := ⟨.hbm, 83, rfl⟩
abbrev main_c_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_13 : Ref sig .tc := ⟨.hbm, 88, rfl⟩
abbrev main_v66 : Ref sig .tc := ⟨.hbm, 89, rfl⟩
abbrev main_v67 : Ref sig .tc := ⟨.hbm, 90, rfl⟩
abbrev main_c_14 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]

class Facts₀ : Prop where
  slices_S2048x4096_S2047x4096_1_0 : S2048x4096.Slices ![1, 0] S2047x4096
  reducesTo_S2047x4096_S4096_d0 : S2047x4096.ReducesTo [0] S4096
  h_S_ : 0 < S_.numel
  slices_S2048x4096_S1x4096_0_0 : S2048x4096.Slices ![0, 0] S1x4096
  shapeCasts_S1x4096_S4096 : S1x4096.ShapeCasts S4096
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S2047x4096_0_1 : S1x4096.BroadcastsInDim S2047x4096 (![0, 1] : Fin 2 → Fin S2047x4096.rank)
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  bcast_S_S6144x4096 : S_.BroadcastsInDim S6144x4096 (![] : Fin 0 → Fin S6144x4096.rank)
  bcast_S_S1 : S_.BroadcastsInDim S1 (![] : Fin 0 → Fin S1.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  scatter_S6144x4096_S1_S4096_0_0_0_0_wf : ScatterDims.WF S6144x4096 S1 S4096 [0] [0] [0] 0
  scatter_S6144x4096_S1_S2047x4096_01_n_0_0_wf : ScatterDims.WF S6144x4096 S1 S2047x4096 [0, 1] [] [0] 0
  scatter_S6144x4096_S4096x2_S4096_n_01_01_1_wf : ScatterDims.WF S6144x4096 S4096x2 S4096 [] [0, 1] [0, 1] 1

variable [Facts₀]

def scatter_S6144x4096_S1_S4096_0_0_0_0 : ScatterDims S6144x4096 S1 S4096 where
  updateWindowDims := [0]
  insertedWindowDims := [0]
  scatterDimsToOperandDims := [0]
  indexVectorDim := 0
  wf := scatter_S6144x4096_S1_S4096_0_0_0_0_wf
def scatter_S6144x4096_S1_S2047x4096_01_n_0_0 : ScatterDims S6144x4096 S1 S2047x4096 where
  updateWindowDims := [0, 1]
  insertedWindowDims := []
  scatterDimsToOperandDims := [0]
  indexVectorDim := 0
  wf := scatter_S6144x4096_S1_S2047x4096_01_n_0_0_wf
def scatter_S6144x4096_S4096x2_S4096_n_01_01_1 : ScatterDims S6144x4096 S4096x2 S4096 where
  updateWindowDims := []
  insertedWindowDims := [0, 1]
  scatterDimsToOperandDims := [0, 1]
  indexVectorDim := 1
  wf := scatter_S6144x4096_S4096x2_S4096_n_01_01_1_wf

class Facts : Prop extends Facts₀ where

variable [Facts]
-- ==== Proof.KerTerm.lean ====
/-
  What the kernel program's host operations after the Pallas region compute from the region's three output arrays
  (the 2048 x 4096 main block, the 1 x 4096 row of new error terms and the 1 x 4096 row of crossing flags): the flags
  converted to words, their exclusive running sum as row numbers, the error terms scattered into a 4096 x 4096 block
  of zeros at (row, column), and that block appended below the main block.
-/
import proofs.«129838_j46454366273944_1_alg».proof.KernelIdeal

noncomputable section

namespace Cert.KernelIdeal.KerTerm

open Idealize.ShloMosaic Cert.KernelIdeal

variable {F : FTy → Type} [FloatOps F] [Facts]
open Facts₀ Facts

/-- a rank-0 word constant broadcast over the columns -/
def bci (w : BitVec 32) : IVec S4096 32 := broadcastInDim S4096 ![] bcast_S_S4096 (constantI S_ 32 w)
/-- %2: the crossing flags, floats 0 / 1, converted to words -/
def ciK (cf : FVec F S1x4096 .f32) : IVec S4096 32 := fptosi 32 (shapeCast S4096 cf shapeCasts_S1x4096_S4096)
/-- the outlined cumsum: the inclusive running sum -/
def cum (v : IVec S4096 32) : IVec S4096 32 :=
  Host.reduceWindow IntOp.addi ![4096] ![1] ![4095] ![0] v (broadcastInDim S_ ![] bcast_S_S_ (constantI S_ 32 0#32))
    reduceWindows_S4096_S4096_w4096s1p4095_0 h_S_
/-- %4: the exclusive running sum -/
def lrows (cf : FVec F S1x4096 .f32) : IVec S4096 32 := subi (cum (ciK cf)) (ciK cf)
/-- index normalisation: a negative index counts from the end `n` -/
def norm (n : BitVec 32) (v : IVec S4096 32) : IVec S4096 32 := select (cmpi .slt v (bci 0#32)) (addi v (bci n)) v
/-- %20: the (row, column) pairs -/
def idx2 (r c : IVec S4096 32) : IVec S4096x2 32 :=
  concatenate S4096x2 1 [⟨S4096x1, broadcastInDim S4096x1 ![0] bcast_S4096_S4096x1_0 r⟩,
    ⟨S4096x1, broadcastInDim S4096x1 ![0] bcast_S4096_S4096x1_0 c⟩] concatenates_S4096x1_S4096x1_S4096x2_d1
/-- %21: the new error terms scattered into zeros -/
def extra (nv cf : FVec F S1x4096 .f32) : FVec F S4096x4096 .f32 :=
  Host.scatterAdd scatter_S4096x4096_S4096x2_S4096_n_01_01_1
    (broadcastInDim S4096x4096 ![] bcast_S_S4096x4096 (constant S_ .f32 0x00000000#32))
    (idx2 (norm 4096#32 (lrows cf)) (norm 4096#32 (iotaInDim S4096 32 0)))
    (shapeCast S4096 nv shapeCasts_S1x4096_S4096)
/-- %22: the result -/
def kerOut (mainB : FVec F S2048x4096 .f32) (nv cf : FVec F S1x4096 .f32) : FVec F S6144x4096 .f32 :=
  concatenate S6144x4096 0 [⟨S2048x4096, mainB⟩, ⟨S4096x4096, extra nv cf⟩] concatenates_S2048x4096_S4096x4096_S6144x4096_d0

end Cert.KernelIdeal.KerTerm

end
-- ==== Proof.KerTail.lean ====
/-
  The kernel program's run with its result named: after the Pallas region the host operations compute, from the
  region's three output arrays, the staged function `KerTerm.kerOut` into the result buffer; the argument is unchanged.
-/
import proofs.«129838_j46454366273944_1_alg».proof.Proof.Gen.KernelIdeal.Frame
import proofs.«129838_j46454366273944_1_alg».proof.Proof.KerTerm
import Idealize.ShloMosaic.Lib.StableHlo.Run
import Idealize.ShloMosaic.Lib.Pipeline.FrameSuffix
import Idealize.ShloMosaic.Lib.ValueIdx

noncomputable section

open scoped BigOperators

namespace Cert.KernelIdeal.KerTail

open Cert.KernelIdeal Cert.KernelIdeal.Gen Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ) (ρ : Dev nD → PrngReg)

/-- two blocks stacked along the rows: the function of the last host operation, named -/
private def catRows (a : (⟨S2048x4096, .f32⟩ : BufTy).Contents (Elt F)) (b : (⟨S4096x4096, .f32⟩ : BufTy).Contents (Elt F)) :
    (⟨S6144x4096, .f32⟩ : BufTy).Contents (Elt F) :=
  concatenate S6144x4096 0 [⟨S2048x4096, a⟩, ⟨S4096x4096, b⟩] Gen.concatenates_S2048x4096_S4096x4096_S6144x4096_d0

/-- two columns of indices side by side: the function of the operation that pairs rows with columns, named -/
private def catPair (a b : (⟨S4096x1, .i32⟩ : BufTy).Contents (Elt F)) : (⟨S4096x2, .i32⟩ : BufTy).Contents (Elt F) :=
  concatenate S4096x2 1 [⟨S4096x1, a⟩, ⟨S4096x1, b⟩] Gen.concatenates_S4096x1_S4096x1_S4096x2_d1

private theorem catRows_fn :
    ((fun a b => concatenate S6144x4096 0 [⟨S2048x4096, a⟩, ⟨S4096x4096, b⟩] Gen.concatenates_S2048x4096_S4096x4096_S6144x4096_d0) :
      (⟨S2048x4096, .f32⟩ : BufTy).Contents (Elt F) → (⟨S4096x4096, .f32⟩ : BufTy).Contents (Elt F) → (⟨S6144x4096, .f32⟩ : BufTy).Contents (Elt F))
      = catRows := rfl

private theorem catPair_fn :
    ((fun a b => concatenate S4096x2 1 [⟨S4096x1, a⟩, ⟨S4096x1, b⟩] Gen.concatenates_S4096x1_S4096x1_S4096x2_d1) :
      (⟨S4096x1, .i32⟩ : BufTy).Contents (Elt F) → (⟨S4096x1, .i32⟩ : BufTy).Contents (Elt F) → (⟨S4096x2, .i32⟩ : BufTy).Contents (Elt F))
      = catPair := rfl

/-- what the host operations after the region leave in the result buffer -/
theorem tail_out (c : Dev nD) :
    Pipeline.afterTail₀ cfgs (dats m) 0 (V0 m) [hostOps1, hostOps1_1, hostOps1_2] c main_v22
      = KerTerm.kerOut ((dats m 0 c).arrAt 1 cfg0.N) ((dats m 0 c).arrAt 2 cfg0.N) ((dats m 0 c).arrAt 3 cfg0.N) := by
  unfold Pipeline.afterTail₀
  simp only [hostOps1, hostOps1_1, hostOps1_2, List.flatten_cons, List.flatten_nil, List.append_nil, List.cons_append, List.nil_append]
  -- the region's three output arrays are what the operations read; every other buffer they read they wrote first
  have h1 := Pipeline.withArrays_arr spec0 launch0.win.arr_inj c (V0 m c) (fun w => (dats m 0 c).arrAt w (cfgs 0).N) 1
  have h2 := Pipeline.withArrays_arr spec0 launch0.win.arr_inj c (V0 m c) (fun w => (dats m 0 c).arrAt w (cfgs 0).N) 2
  have h3 := Pipeline.withArrays_arr spec0 launch0.win.arr_inj c (V0 m c) (fun w => (dats m 0 c).arrAt w (cfgs 0).N) 3
  generalize Pipeline.withArrays (cfgs 0).spec c (V0 m c) (fun w => (dats m 0 c).arrAt w (cfgs 0).N) = W0 at h1 h2 h3 ⊢
  have e1 : W0 (Proc.devRef .tc main_v0_0) = (dats m 0 c).arrAt 1 cfg0.N := h1
  have e2 : W0 (Proc.devRef .tc main_v0_1) = (dats m 0 c).arrAt 2 cfg0.N := h2
  have e3 : W0 (Proc.devRef .tc main_v0_2) = (dats m 0 c).arrAt 3 cfg0.N := h3
  -- each operation's result is its function of its operands' results, down to those three arrays
  simp only [catRows_fn, catPair_fn]
  after_results_simp
  -- the outlined running sum moves its operands between equal buffer types: the identity
  simp only [TRef.toBuf, TRef.ofBuf]
  repeat rw [cast_eq]
  rw [e1, e2, e3]
  rfl

/-- the run, its result named and its argument unchanged -/
theorem run_out : θ_run defs (onTc (τ := τ) (main (F := F))) ⟨m, fun _ => 0, ρ⟩ fun r => ∀ c : Dev nD,
      r.2.mem ((c : Thread nD τ).loc main_v22)
        = KerTerm.kerOut ((dats m 0 c).arrAt 1 cfg0.N) ((dats m 0 c).arrAt 2 cfg0.N) ((dats m 0 c).arrAt 3 cfg0.N)
      ∧ r.2.mem ((c : Thread nD τ).loc main_arg0) = m ((c : Thread nD τ).loc main_arg0) := by
  -- the result buffer is unscoped and no window's array, so the frame run states it at the tail's contents
  have hmem : main_v22 ∈ Pipeline.restRefs sig cfg0.spec := Pipeline.mem_restRefs_of main_v22 rfl (by decide)
  exact (θ_run defs _ _).mono (fun r h c => ⟨((h c).2 main_v22 hmem).trans (tail_out m c),
    ((h c).1 0).trans (((dats m 0 c).arrAt_in 0 rfl _).trans ((A_eq m c 0).trans (V_main_arg0 m c)))⟩) (run_main m ρ)

end Cert.KernelIdeal.KerTail

end
-- ==== Proof.KerPieces.lean ====
/-
  What one run of the kernel body leaves in its three output blocks, as pure functions of the input block v0
  (2048 x 512): the main block is v0 times the column scale with row 0 then overwritten by the new centre (the
  later, one-row store covers row 0 of the earlier whole-block store); the second block is the row of new error
  terms; the third the row of crossing flags.
-/
import proofs.«129838_j46454366273944_1_alg».proof.Proof.Gen.KernelIdeal.Frame
import Idealize.ShloMosaic.Lib.ValueIdx
import Idealize.ShloMosaic.Lib.Pipeline.Value

noncomputable section

open scoped BigOperators

namespace Cert.KernelIdeal.KerPieces

open Cert.KernelIdeal Cert.KernelIdeal.Gen Idealize.ShloMosaic Idealize.ShloMosaic.TcCoe Idealize.ShloMosaic.ValueIdx Idealize.SL.Sem

variable {F : FTy → Type} [FloatOps F]

/-- the zero offsets, however they are spelt -/
private theorem hz : (![0, 0] : Fin 2 → Nat) = fun _ => 0 := funext fun a => by fin_cases a <;> rfl

/-- A one-row store at row 0 made after a whole-block store: the block then reads the row's payload on row 0 and
    the whole-block payload on every other row. -/
private theorem canon_row0_over_whole {Val : EltTy → Type} [∀ e, Nonempty (Val e)]
    (inb1 : ∀ a, (![0, 0] : Fin 2 → Nat) a + (![1, 512] : Fin 2 → Nat) a ≤ S2048x512.size a)
    (inb2 : ∀ a, (![0, 0] : Fin 2 → Nat) a + (![2048, 512] : Fin 2 → Nat) a ≤ S2048x512.size a)
    (w1 : S1x512.Idx → Val .f32) (w2 : S2048x512.Idx → Val .f32) (p : Fin 2048) (q : Fin 512) :
    View.canon [(⟨Rect.unit (s := S2048x512) ![0, 0] ![1, 512] inb1, w1⟩ : View.Piece Val S2048x512 .f32),
        ⟨Rect.unit (s := S2048x512) ![0, 0] ![2048, 512] inb2, w2⟩] (ix2 p q)
      = if p.val = 0 then w1 (ix2 (⟨0, by decide⟩ : Fin 1) q) else w2 (ix2 p q) := by
  by_cases h : p.val = 0
  · rw [if_pos h]
    -- on row 0 the index is the one-row rectangle's own index (0, q) placed in the block
    have hy : (Rect.unit (s := S2048x512) ![0, 0] ![1, 512] inb1).emb (ix2 (⟨0, by decide⟩ : Fin 1) q)
        = (ix2 p q : S2048x512.Idx) := by
      funext a
      apply Fin.ext
      match a with
      | ⟨0, _⟩ => show 0 + 1 * 0 = p.val; omega
      | ⟨1, _⟩ => show 0 + 1 * q.val = q.val; omega
    have hc := View.canon_cons_emb (Val := Val) (Rect.unit (s := S2048x512) ![0, 0] ![1, 512] inb1) w1
      [(⟨Rect.unit (s := S2048x512) ![0, 0] ![2048, 512] inb2, w2⟩ : View.Piece Val S2048x512 .f32)]
      (ix2 (⟨0, by decide⟩ : Fin 1) q)
    rw [hy] at hc
    exact hc
  · rw [if_neg h]
    -- off row 0 the one-row rectangle does not hold the index, and the earlier store is the whole block
    have hm : (ix2 p q : S2048x512.Idx) ∉ (Rect.unit (s := S2048x512) ![0, 0] ![1, 512] inb1).set := by
      rw [Rect.mem_set_unit]
      intro hall
      have h0 : p.val < 0 + 1 := (hall 0).2
      omega
    refine (View.canon_cons_of_not_mem (Val := Val)
      (⟨Rect.unit (s := S2048x512) ![0, 0] ![1, 512] inb1, w1⟩ : View.Piece Val S2048x512 .f32)
      [(⟨Rect.unit (s := S2048x512) ![0, 0] ![2048, 512] inb2, w2⟩ : View.Piece Val S2048x512 .f32)]
      (y := ix2 p q) hm).trans ?_
    exact congrFun (View.canon_unit_zero (Val := Val) (S := S2048x512) hz inb2 w2) (ix2 p q)

/-- the main output block: row 0 the new centre, the other rows the scaled input -/
def mainBlk (v0 : Vec F S2048x512 .f32) : Vec F S2048x512 .f32 := fun y =>
  if (y 0).val = 0 then k0_pay10 v0 (ix2 (⟨0, by decide⟩ : Fin 1) (y 1)) else k0_pay11 v0 y

theorem out1_eq (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S1x512 .f32) (harg4 : arg4.IsWhole)
    (v0 : Vec F S2048x512 .f32) :
    out0_A_1 c i arg1 harg1 arg2 harg2 arg3 harg3 arg4 harg4 v0 = mainBlk v0 := by
  unfold out0_A_1
  rw [View.read_writes_eq_canon _ _ _ (cover0_A_1 c i arg1 harg1 arg2 harg2 arg3 harg3 arg4 harg4 v0)]
  unfold kernelRun0_A
  dsimp only
  sl_unfold_words
  simp only [View.readAt_eq_ld, harg1.read_unread, View.ld_unit_zero (S := S2048x512) hz]
  funext y
  obtain ⟨p, q, rfl⟩ : ∃ (p : Fin 2048) (q : Fin 512), y = ix2 p q := ⟨y 0, y 1, eq_ix2 y⟩
  refine (canon_row0_over_whole (Val := Elt F) inb_S2048x512_S1x512_0_0 inb_S2048x512_S2048x512_0_0
    (k0_pay10 v0) (k0_pay11 v0) p q).trans ?_
  rfl

theorem out2_eq (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S1x512 .f32) (harg4 : arg4.IsWhole)
    (v0 : Vec F S2048x512 .f32) :
    out0_A_2 c i arg1 harg1 arg2 harg2 arg3 harg3 arg4 harg4 v0 = k0_pay1 (k0_pay6 v0) (k0_pay9 v0) := by
  unfold out0_A_2
  rw [View.read_writes_eq_canon _ _ _ (cover0_A_2 c i arg1 harg1 arg2 harg2 arg3 harg3 arg4 harg4 v0)]
  unfold kernelRun0_A
  dsimp only
  sl_unfold_words
  rw [View.canon_unit_zero hz]
  simp only [View.readAt_eq_ld, harg1.read_unread, View.ld_unit_zero (S := S2048x512) hz]

theorem out3_eq (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S1x512 .f32) (harg4 : arg4.IsWhole)
    (v0 : Vec F S2048x512 .f32) :
    out0_A_3 c i arg1 harg1 arg2 harg2 arg3 harg3 arg4 harg4 v0 = k0_pay6 v0 := by
  unfold out0_A_3
  rw [View.read_writes_eq_canon _ _ _ (cover0_A_3 c i arg1 harg1 arg2 harg2 arg3 harg3 arg4 harg4 v0)]
  unfold kernelRun0_A
  dsimp only
  sl_unfold_words
  rw [View.canon_unit_zero hz]
  simp only [View.readAt_eq_ld, harg1.read_unread, View.ld_unit_zero (S := S2048x512) hz]

end Cert.KernelIdeal.KerPieces

end
-- ==== Proof.Spec.lean ====
/-
  What both programs compute, as mathematics over the extended reals.

  The input is a 2048 x 4096 array x. Column j is a zonotope coordinate: x(0,j) is its centre and rows 1..2047 are its
  generators. With a(j) = sum over rows 1..2047 of |x(i,j)| the interval bounds are up = x(0,j) + a(j) and
  lo = x(0,j) - a(j). A column "crosses" when lo * up < 0 and is "positive" when lo >= 0; both flags are read as 0 / 1.
  The slope lam is 1 on a positive column, up / (up - lo) on a crossing one (1/2 where up = lo), 0 elsewhere;
  delta = max (-lam * lo) ((1 - lam) * up). Row 0 of the result is the new centre, rows 1..2047 are the generators
  scaled by lam * cross + pos, and each crossing column j gets one new error term delta/2 in row 2048 + (number of
  crossing columns before j), all other entries of rows 2048..6143 being zero.
-/
import Idealize.ShloMosaic.PureOps
import Idealize.ShloMosaic.PureOps.Ideal
import Idealize.ShloMosaic.Lib.ValueIdx

noncomputable section

open scoped BigOperators

namespace Cert.Spec

open Idealize.ShloMosaic Idealize.ShloMosaic.ValueIdx

abbrev S2048x4096 : Shape := ⟨2, ![2048, 4096]⟩
abbrev S6144x4096 : Shape := ⟨2, ![6144, 4096]⟩
abbrev S1x4096 : Shape := ⟨2, ![1, 4096]⟩
abbrev S4096 : Shape := ⟨1, ![4096]⟩
abbrev S_ : Shape := ⟨0, ![]⟩

/-! ## One column: functions of its centre `x0` and the absolute sum `a` of its generators -/

/-- The three float literals of both programs, as the extended reals they denote at the ideal instance. -/
def c0 : EReal := Ideal.ofBits .f32 0x00000000#32
def c1 : EReal := Ideal.ofBits .f32 0x3F800000#32
def ch : EReal := Ideal.ofBits .f32 0x3F000000#32

def up (x0 a : EReal) : EReal := x0 + a
def lo (x0 a : EReal) : EReal := x0 - a
/-- the column straddles zero -/
def crossB (x0 a : EReal) : BitVec 1 := Ideal.cmp .olt (lo x0 a * up x0 a) c0
/-- the column is non-negative -/
def posB (x0 a : EReal) : BitVec 1 := Ideal.cmp .oge (lo x0 a) c0
def crossf (x0 a : EReal) : EReal := (((crossB x0 a).toNat : ℝ) : EReal)
def posf (x0 a : EReal) : EReal := (((posB x0 a).toNat : ℝ) : EReal)
def den (x0 a : EReal) : EReal := up x0 a - lo x0 a
def safeB (x0 a : EReal) : BitVec 1 := Ideal.cmp .une (den x0 a) c0
/-- up / (up - lo) where the width is not zero, 1/2 where it is -/
def quot (x0 a : EReal) : EReal :=
  Scalar.select (safeB x0 a) (Ideal.div (up x0 a) (Scalar.select (safeB x0 a) (den x0 a) c1)) ch
def lam (x0 a : EReal) : EReal := posf x0 a + crossf x0 a * quot x0 a
def delta (x0 a : EReal) : EReal := max (-(lam x0 a) * lo x0 a) ((c1 - lam x0 a) * up x0 a)
def center (x0 a : EReal) : EReal := (delta x0 a * ch + lam x0 a * x0) * crossf x0 a + x0 * posf x0 a
def scale (x0 a : EReal) : EReal := lam x0 a * crossf x0 a + posf x0 a
def newval (x0 a : EReal) : EReal := delta x0 a * ch * crossf x0 a
/-- the crossing flag as a 32-bit word, 0 or 1 -/
def ci (x0 a : EReal) : BitVec 32 := (crossB x0 a).setWidth 32

/-! ## The array -/

/-- the centre of column `j` -/
def x0 (x : S2048x4096.Idx → EReal) (j : Fin 4096) : EReal := x (ix2 (⟨0, by decide⟩ : Fin 2048) j)
/-- the absolute sum of column `j`'s generators, rows 1 to 2047 -/
def asum (x : S2048x4096.Idx → EReal) (j : Fin 4096) : EReal :=
  ∑ k : Fin 2047, max (x (ix2 (⟨k.val + 1, by omega⟩ : Fin 2048) j)) (-(x (ix2 (⟨k.val + 1, by omega⟩ : Fin 2048) j)))

def centerA (x : S2048x4096.Idx → EReal) (j : Fin 4096) : EReal := center (x0 x j) (asum x j)
def scaleA (x : S2048x4096.Idx → EReal) (j : Fin 4096) : EReal := scale (x0 x j) (asum x j)
def newvalA (x : S2048x4096.Idx → EReal) (j : Fin 4096) : EReal := newval (x0 x j) (asum x j)
def crossfA (x : S2048x4096.Idx → EReal) (j : Fin 4096) : EReal := crossf (x0 x j) (asum x j)
/-- the crossing flags as a vector of 32-bit words -/
def ciA (x : S2048x4096.Idx → EReal) : S4096.Idx → BitVec 32 := fun j => ci (x0 x (j 0)) (asum x (j 0))

/-- the inclusive running sum of a vector of words, as both programs take it: a window of 4096 padded 4095 low -/
def cum (v : S4096.Idx → BitVec 32) : S4096.Idx → BitVec 32 :=
  Host.reduceWindow (s := S4096) (t := S4096) (u := S_) IntOp.addi ![4096] ![1] ![4095] ![0] v (fun _ => 0#32)
    (by decide) (by decide)

/-- the number of crossing columns before column `j`, as a word -/
def lr (x : S2048x4096.Idx → EReal) : S4096.Idx → BitVec 32 := fun j => IntOp.subi (cum (ciA x) j) (ciA x j)

/-- rows 0 .. 2047 of the result: the new centre in row 0, the scaled generators below it -/
def mainA (x : S2048x4096.Idx → EReal) : S2048x4096.Idx → EReal := fun i =>
  if (i 0).val = 0 then centerA x (i 1) else x i * scaleA x (i 1)
/-- the new error terms, one per column, as the 1 x 4096 array the kernel writes -/
def newvalRow (x : S2048x4096.Idx → EReal) : S1x4096.Idx → EReal := fun i => newvalA x (i 1)
/-- the crossing flags as floats, as the 1 x 4096 array the kernel writes -/
def crossfRow (x : S2048x4096.Idx → EReal) : S1x4096.Idx → EReal := fun i => crossfA x (i 1)

/-- The whole result. -/
def G (x : S2048x4096.Idx → EReal) : S6144x4096.Idx → EReal := fun i =>
  if h : (i 0).val < 2048 then mainA x (ix2 (⟨(i 0).val, h⟩ : Fin 2048) (i 1))
  else if (lr x (ix1 (i 1))).toNat + 2048 = (i 0).val then newvalA x (i 1) else 0

end Cert.Spec

end
-- ==== Proof.KerCol.lean ====
/-
  The kernel body's arithmetic at one column of one block, at the ideal instance: with v0 the 2048 x 512 input
  block, all of whose entries are real numbers, and q a column of it, the body's absolute sum over ALL rows less the
  absolute value of row 0 is the absolute sum of rows 1 .. 2047 (a finite number is cancelled), the flags converted
  through a 32-bit integer are the flags read as 0 / 1, and 0 - lam is -lam; so each payload at column q is the
  specification's column function of the centre v0(0,q) and that absolute sum.
-/
import proofs.«129838_j46454366273944_1_alg».proof.Proof.Gen.KernelIdeal.Skeleton
import proofs.«129838_j46454366273944_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.KerCol

open Cert.KernelIdeal Cert.KernelIdeal.Gen Idealize.ShloMosaic Idealize.ShloMosaic.ValueIdx

/-- the absolute sum of rows 1 .. 2047 of column `q` of a block -/
def bsum (v0 : S2048x512.Idx → EReal) (q : Fin 512) : EReal :=
  ∑ k : Fin 2047, max (v0 (ix2 (⟨k.val + 1, by omega⟩ : Fin 2048) q)) (-(v0 (ix2 (⟨k.val + 1, by omega⟩ : Fin 2048) q)))

/-- the centre of column `q` of a block -/
def b0 (v0 : S2048x512.Idx → EReal) (q : Fin 512) : EReal := v0 (ix2 (⟨0, by decide⟩ : Fin 2048) q)

/-- the absolute value of a real number is a real number -/
private theorem abs_coe (r : ℝ) : max (r : EReal) (-(r : EReal)) = ((max r (-r) : ℝ) : EReal) := by
  rcases le_total r (-r) with h | h
  · rw [max_eq_right h, max_eq_right (by rw [← EReal.coe_neg]; exact EReal.coe_le_coe_iff.mpr h), EReal.coe_neg]
  · rw [max_eq_left h, max_eq_left (by rw [← EReal.coe_neg]; exact EReal.coe_le_coe_iff.mpr h)]

/-- a sum over all 2048 rows less its (finite) first term is the sum over rows 1 .. 2047 -/
private theorem sum_sub_head (f : Fin 2048 → EReal) (r : ℝ) (h0 : f ⟨0, by decide⟩ = (r : EReal)) :
    (∑ k : Fin 2048, f k) - f ⟨0, by decide⟩ = ∑ k : Fin 2047, f ⟨k.val + 1, by omega⟩ := by
  rw [Fin.sum_univ_succ]
  show f ⟨0, by decide⟩ + (∑ k : Fin 2047, f ⟨k.val + 1, by omega⟩) - f ⟨0, by decide⟩ = _
  rw [h0]
  exact EReal.add_sub_cancel_left

/-- the sum over the rows of a block, read at a column -/
private theorem colsum (w : FVec Ideal S2048x512 .f32) (hφ : FKind.Formats .f32)
    (hacc : (0x00000000#32 : BitVec 32) = FKind.add.neutral .f32 hφ) (q : Fin 512) :
    multiReduction (F := Ideal) .add [0] S512 w 0x00000000#32 reduces_S2048x512_S512 hφ hacc (ix1 q)
      = ∑ k : Fin 2048, w (ix2 k q) := by
  refine (Ideal.multiReduction_add_single w 0x00000000#32 reduces_S2048x512_S512 hφ hacc (ix1 q)).trans ?_
  refine Finset.sum_congr rfl fun k _ => congrArg w ?_
  funext c
  refine Fin.ext ?_
  match c with
  | ⟨0, _⟩ => rfl
  | ⟨1, _⟩ => rfl

variable (v0 : Vec Ideal S2048x512 .f32) (hfin : ∀ i, ∃ r : ℝ, v0 i = (r : EReal))

/-- row 0 of the block -/
theorem pay2_apply (q : Fin 512) :
    k0_pay2 (F := Ideal) v0 (ix2 (⟨0, by decide⟩ : Fin 1) q) = b0 v0 q := by
  unfold k0_pay2 b0
  exact slice2_axis0_apply 0 v0 _ _ q _ rfl

include hfin in
/-- the absolute sum of the generators -/
theorem pay3_apply (q : Fin 512) :
    k0_pay3 (F := Ideal) v0 (ix2 (⟨0, by decide⟩ : Fin 1) q) = bsum v0 q := by
  obtain ⟨r, hr⟩ := hfin (ix2 (⟨0, by decide⟩ : Fin 2048) q)
  have h1 : k0_pay3 (F := Ideal) v0 (ix2 (⟨0, by decide⟩ : Fin 1) q)
      = (∑ k : Fin 2048, max (v0 (ix2 k q)) (-(v0 (ix2 k q)))) - max (b0 v0 q) (-(b0 v0 q)) := by
    unfold k0_pay3
    refine congrArg₂ (· - ·) ?_ ?_
    · refine (shapeCast_a_1a_apply _ _ _ q).trans ?_
      exact colsum (absf v0) _ _ q
    · show max (k0_pay2 (F := Ideal) v0 _) (-(k0_pay2 (F := Ideal) v0 _)) = _
      rw [pay2_apply]
  rw [h1]
  unfold bsum b0
  exact sum_sub_head (fun k => max (v0 (ix2 k q)) (-(v0 (ix2 k q)))) (max r (-r)) (by
    show max (v0 _) (-(v0 _)) = _
    rw [hr]; exact abs_coe r)

/-- a one-bit flag widened to 32 bits and read as a signed integer is the flag read as 0 / 1 -/
private theorem bit_cast (b : BitVec 1) : (((b.setWidth 32).toInt : ℝ) : EReal) = ((b.toNat : ℝ) : EReal) := by
  have h : (b.setWidth 32).toInt = (b.toNat : ℤ) := by
    rcases BitVec.eq_zero_or_eq_one b with h | h <;> subst h <;> decide
  rw [h, Int.cast_natCast]

/-- the slope as a function of the bounds and the two flags -/
private def lamOf (u l c p : EReal) : EReal :=
  p + c * Scalar.select (Ideal.cmp .une (u - l) Spec.c0)
    (Ideal.div u (Scalar.select (Ideal.cmp .une (u - l) Spec.c0) (u - l) Spec.c1)) Spec.ch

include hfin

/-- the upper bound -/
theorem pay4_apply (q : Fin 512) :
    k0_pay4 (F := Ideal) v0 (ix2 (⟨0, by decide⟩ : Fin 1) q) = Spec.up (b0 v0 q) (bsum v0 q) := by
  have h1 : k0_pay4 (F := Ideal) v0 (ix2 (⟨0, by decide⟩ : Fin 1) q)
      = k0_pay2 (F := Ideal) v0 (ix2 (⟨0, by decide⟩ : Fin 1) q) + k0_pay3 (F := Ideal) v0 (ix2 (⟨0, by decide⟩ : Fin 1) q) := rfl
  rw [h1, pay2_apply, pay3_apply v0 hfin]
  rfl

/-- the lower bound -/
theorem pay5_apply (q : Fin 512) :
    k0_pay5 (F := Ideal) v0 (ix2 (⟨0, by decide⟩ : Fin 1) q) = Spec.lo (b0 v0 q) (bsum v0 q) := by
  have h1 : k0_pay5 (F := Ideal) v0 (ix2 (⟨0, by decide⟩ : Fin 1) q)
      = k0_pay2 (F := Ideal) v0 (ix2 (⟨0, by decide⟩ : Fin 1) q) - k0_pay3 (F := Ideal) v0 (ix2 (⟨0, by decide⟩ : Fin 1) q) := rfl
  rw [h1, pay2_apply, pay3_apply v0 hfin]
  rfl

/-- the crossing flag as a float -/
theorem pay6_apply (q : Fin 512) :
    k0_pay6 (F := Ideal) v0 (ix2 (⟨0, by decide⟩ : Fin 1) q) = Spec.crossf (b0 v0 q) (bsum v0 q) := by
  have h1 : k0_pay6 (F := Ideal) v0 (ix2 (⟨0, by decide⟩ : Fin 1) q)
      = ((((Ideal.cmp .olt (k0_pay5 (F := Ideal) v0 (ix2 (⟨0, by decide⟩ : Fin 1) q) * k0_pay4 (F := Ideal) v0 (ix2 (⟨0, by decide⟩ : Fin 1) q))
          Spec.c0).setWidth 32).toInt : ℝ) : EReal) := rfl
  rw [h1, pay5_apply v0 hfin, pay4_apply v0 hfin]
  exact bit_cast _

/-- the positivity flag as a float -/
theorem pay7_apply (q : Fin 512) :
    k0_pay7 (F := Ideal) v0 (ix2 (⟨0, by decide⟩ : Fin 1) q) = Spec.posf (b0 v0 q) (bsum v0 q) := by
  have h1 : k0_pay7 (F := Ideal) v0 (ix2 (⟨0, by decide⟩ : Fin 1) q)
      = ((((Ideal.cmp .oge (k0_pay5 (F := Ideal) v0 (ix2 (⟨0, by decide⟩ : Fin 1) q)) Spec.c0).setWidth 32).toInt : ℝ) : EReal) := rfl
  rw [h1, pay5_apply v0 hfin]
  exact bit_cast _

/-- the slope -/
theorem pay8_apply (q : Fin 512) :
    k0_pay8 (F := Ideal) v0 (ix2 (⟨0, by decide⟩ : Fin 1) q) = Spec.lam (b0 v0 q) (bsum v0 q) := by
  have h1 : k0_pay8 (F := Ideal) v0 (ix2 (⟨0, by decide⟩ : Fin 1) q)
      = lamOf (k0_pay4 (F := Ideal) v0 (ix2 (⟨0, by decide⟩ : Fin 1) q)) (k0_pay5 (F := Ideal) v0 (ix2 (⟨0, by decide⟩ : Fin 1) q))
          (k0_pay6 (F := Ideal) v0 (ix2 (⟨0, by decide⟩ : Fin 1) q)) (k0_pay7 (F := Ideal) v0 (ix2 (⟨0, by decide⟩ : Fin 1) q)) := rfl
  rw [h1, pay4_apply v0 hfin, pay5_apply v0 hfin, pay6_apply v0 hfin, pay7_apply v0 hfin]
  rfl

/-- the error bound -/
theorem pay9_apply (q : Fin 512) :
    k0_pay9 (F := Ideal) v0 (ix2 (⟨0, by decide⟩ : Fin 1) q) = Spec.delta (b0 v0 q) (bsum v0 q) := by
  have h1 : k0_pay9 (F := Ideal) v0 (ix2 (⟨0, by decide⟩ : Fin 1) q)
      = max ((Ideal.ofBits .f32 0x00000000#32 - k0_pay8 (F := Ideal) v0 (ix2 (⟨0, by decide⟩ : Fin 1) q))
              * k0_pay5 (F := Ideal) v0 (ix2 (⟨0, by decide⟩ : Fin 1) q))
            ((Spec.c1 - k0_pay8 (F := Ideal) v0 (ix2 (⟨0, by decide⟩ : Fin 1) q))
              * k0_pay4 (F := Ideal) v0 (ix2 (⟨0, by decide⟩ : Fin 1) q)) := rfl
  rw [h1, pay8_apply v0 hfin, pay5_apply v0 hfin, pay4_apply v0 hfin, Ideal.ofBits_zero_f32, zero_sub]
  rfl

/-- the new error term -/
theorem pay1_apply (q : Fin 512) :
    k0_pay1 (F := Ideal) (k0_pay6 v0) (k0_pay9 v0) (ix2 (⟨0, by decide⟩ : Fin 1) q) = Spec.newval (b0 v0 q) (bsum v0 q) := by
  have h1 : k0_pay1 (F := Ideal) (k0_pay6 v0) (k0_pay9 v0) (ix2 (⟨0, by decide⟩ : Fin 1) q)
      = k0_pay9 (F := Ideal) v0 (ix2 (⟨0, by decide⟩ : Fin 1) q) * Spec.ch * k0_pay6 (F := Ideal) v0 (ix2 (⟨0, by decide⟩ : Fin 1) q) := rfl
  rw [h1, pay9_apply v0 hfin, pay6_apply v0 hfin]
  rfl

/-- the new centre -/
theorem pay10_apply (q : Fin 512) :
    k0_pay10 (F := Ideal) v0 (ix2 (⟨0, by decide⟩ : Fin 1) q) = Spec.center (b0 v0 q) (bsum v0 q) := by
  have h1 : k0_pay10 (F := Ideal) v0 (ix2 (⟨0, by decide⟩ : Fin 1) q)
      = (k0_pay9 (F := Ideal) v0 (ix2 (⟨0, by decide⟩ : Fin 1) q) * Spec.ch
          + k0_pay8 (F := Ideal) v0 (ix2 (⟨0, by decide⟩ : Fin 1) q) * k0_pay2 (F := Ideal) v0 (ix2 (⟨0, by decide⟩ : Fin 1) q))
          * k0_pay6 (F := Ideal) v0 (ix2 (⟨0, by decide⟩ : Fin 1) q)
        + k0_pay2 (F := Ideal) v0 (ix2 (⟨0, by decide⟩ : Fin 1) q) * k0_pay7 (F := Ideal) v0 (ix2 (⟨0, by decide⟩ : Fin 1) q) := rfl
  rw [h1, pay9_apply v0 hfin, pay8_apply v0 hfin, pay2_apply, pay6_apply v0 hfin, pay7_apply v0 hfin]
  rfl

/-- the scaled input -/
theorem pay11_apply (p : Fin 2048) (q : Fin 512) :
    k0_pay11 (F := Ideal) v0 (ix2 p q) = v0 (ix2 p q) * Spec.scale (b0 v0 q) (bsum v0 q) := by
  have h1 : k0_pay11 (F := Ideal) v0 (ix2 p q)
      = v0 (ix2 p q) * broadcastTo S2048x512 (addf (mulf (k0_pay8 (F := Ideal) v0) (k0_pay6 (F := Ideal) v0)) (k0_pay7 (F := Ideal) v0))
          broadcasts_S1x512_S2048x512 (ix2 p q) := rfl
  rw [h1, broadcastTo_1b_ab_apply]
  show v0 (ix2 p q) * (k0_pay8 (F := Ideal) v0 (ix2 (⟨0, by decide⟩ : Fin 1) q) * k0_pay6 (F := Ideal) v0 (ix2 (⟨0, by decide⟩ : Fin 1) q)
      + k0_pay7 (F := Ideal) v0 (ix2 (⟨0, by decide⟩ : Fin 1) q)) = _
  rw [pay8_apply v0 hfin, pay6_apply v0 hfin, pay7_apply v0 hfin]
  rfl

end Cert.KernelIdeal.KerCol

end
-- ==== Proof.KerValue.lean ====
/-
  The main array the Pallas region leaves (2048 x 4096), at the ideal instance, as a function of the argument x (all
  of whose entries are real numbers): grid point t writes back column block t (columns 512 t .. 512 t + 511); a
  block's column q is column 512 t + q of x, so the block's column functions are the array's, and the eight blocks
  tile the array. Row 0 holds the new centres, the rows below the scaled generators.
-/
import proofs.«129838_j46454366273944_1_alg».proof.Proof.Gen.KernelIdeal.Frame
import proofs.«129838_j46454366273944_1_alg».proof.Proof.KerPieces
import proofs.«129838_j46454366273944_1_alg».proof.Proof.KerCol
import proofs.«129838_j46454366273944_1_alg».proof.Proof.Spec
import Idealize.ShloMosaic.Lib.Pipeline.Value
import Idealize.ShloMosaic.Lib.ValueIdx

noncomputable section

open scoped BigOperators

namespace Cert.KernelIdeal.KerValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- the argument as an array of extended reals -/
abbrev xarr (c : Dev nD) : Spec.S2048x4096.Idx → EReal := m ((c : Thread nD τ).loc main_arg0)

/-- the input block at grid point t -/
abbrev xblk (c : Dev nD) (t : Fin cfg0.N) : Vec Ideal S2048x512 .f32 := iblk m c 0 t

/-- at grid point t both the input window and the main output window sit at block (0, t) -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

theorem t_lt (t : Fin cfg0.N) : t.val < 8 := by
  have h : cfg0.N = 8 := N_0
  have := t.isLt
  omega

/-- entry (p, q) of the input block at point t is entry (p, 512 t + q) of the argument -/
theorem xblk_apply (c : Dev nD) (t : Fin cfg0.N) (p : Fin 2048) (q : Fin 512) (j : Fin 4096)
    (hj : j.val = 512 * t.val + q.val) :
    xblk m c t (ix2 p q) = xarr m c (ix2 p j) := by
  obtain ⟨e0, e1, -, -⟩ := idx_facts t
  unfold xblk iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 2048 + 1 * p.val = p.val; rw [e0]; omega
  | ⟨1, _⟩ => show win0_0.index t (1 : Fin 2) * 512 + 1 * q.val = j.val; rw [e1, hj]; omega

theorem col_lt (t : Fin cfg0.N) (q : Fin 512) : 512 * t.val + q.val < 4096 := by
  have := t_lt t
  have := q.isLt
  omega

/-- column q of block t is column 512 t + q of the array -/
def col (t : Fin cfg0.N) (q : Fin 512) : Fin 4096 := ⟨512 * t.val + q.val, col_lt t q⟩

/-- the centre of a block's column is the centre of the array's column -/
theorem b0_eq (c : Dev nD) (t : Fin cfg0.N) (q : Fin 512) :
    KerCol.b0 (xblk m c t) q = Spec.x0 (xarr m c) (col t q) := by
  unfold KerCol.b0 Spec.x0
  exact xblk_apply m c t (⟨0, by decide⟩ : Fin 2048) q (col t q) rfl

/-- the absolute sum of a block's column is that of the array's column: the same rows, term by term -/
theorem bsum_eq (c : Dev nD) (t : Fin cfg0.N) (q : Fin 512) :
    KerCol.bsum (xblk m c t) q = Spec.asum (xarr m c) (col t q) := by
  unfold KerCol.bsum Spec.asum
  refine Finset.sum_congr rfl fun k _ => ?_
  rw [xblk_apply m c t (⟨k.val + 1, by omega⟩ : Fin 2048) q (col t q) rfl]

/-- a block of an array of real numbers is an array of real numbers -/
theorem xblk_fin (c : Dev nD) (hfin : ∀ i, ∃ r : ℝ, xarr m c i = (r : EReal)) (t : Fin cfg0.N) :
    ∀ i, ∃ r : ℝ, xblk m c t i = (r : EReal) := by
  intro i
  obtain ⟨p, q, rfl⟩ : ∃ (p : Fin 2048) (q : Fin 512), i = ix2 p q := ⟨i 0, i 1, eq_ix2 i⟩
  rw [xblk_apply m c t p q (col t q) rfl]
  exact hfin _

/-- the main output block of a real input block, entry by entry: row 0 is the new centre of the column, the other
    rows are the input scaled by the column's scale -/
theorem mainBlk_apply (v0 : Vec Ideal S2048x512 .f32) (hv : ∀ i, ∃ r : ℝ, v0 i = (r : EReal)) (p : Fin 2048) (q : Fin 512) :
    KerPieces.mainBlk v0 (ix2 p q)
      = if p.val = 0 then Spec.center (KerCol.b0 v0 q) (KerCol.bsum v0 q)
        else v0 (ix2 p q) * Spec.scale (KerCol.b0 v0 q) (KerCol.bsum v0 q) := by
  unfold KerPieces.mainBlk
  show (if p.val = 0 then k0_pay10 v0 (ix2 (⟨0, by decide⟩ : Fin 1) q) else k0_pay11 v0 (ix2 p q)) = _
  by_cases hp : p.val = 0
  · rw [if_pos hp, if_pos hp]
    exact KerCol.pay10_apply v0 hv q
  · rw [if_neg hp, if_neg hp]
    exact KerCol.pay11_apply v0 hv p q

/-- entry (p, q) of the main block at point t is entry (p, 512 t + q) of the specification's array -/
theorem main_point (c : Dev nD) (hfin : ∀ i, ∃ r : ℝ, xarr m c i = (r : EReal)) (t : Fin cfg0.N) (p : Fin 2048) (q : Fin 512) :
    KerPieces.mainBlk (xblk m c t) (ix2 p q) = Spec.mainA (xarr m c) (ix2 p (col t q)) := by
  rw [mainBlk_apply (xblk m c t) (xblk_fin m c hfin t) p q, b0_eq, bsum_eq, xblk_apply m c t p q (col t q) rfl]
  unfold Spec.mainA Spec.centerA Spec.scaleA
  rfl

/-- what point t writes back to the main output is block t of the specification's array -/
theorem flushed1_eq (c : Dev nD) (hfin : ∀ i, ∃ r : ℝ, xarr m c i = (r : EReal)) (t : Fin cfg0.N) :
    (dats m 0 c).flushed 1 t = ((cfg0.win 1).blk t).view.read (Elt Ideal) (Spec.mainA (xarr m c)) := by
  show (cfg0.win 1).cut (grid0.coords t) ((dats m 0 c).after 1 t) = _
  rw [after0_1]
  unfold outsAt0
  dsimp only
  rw [KerPieces.out1_eq]
  obtain ⟨-, -, e2, e3⟩ := idx_facts t
  funext y
  rw [View.read_apply]
  have h0 : (y 0).val < 2048 := (y 0).isLt
  have h1 : (y 1).val < 512 := (y 1).isLt
  show KerPieces.mainBlk (xblk m c t) ((cfg0.win 1).xinj (grid0.coords t) y) = Spec.mainA (xarr m c) (((cfg0.win 1).blk t).view.emb y)
  have hx : (cfg0.win 1).xinj (grid0.coords t) y = ix2 (⟨(y 0).val, h0⟩ : Fin 2048) (⟨(y 1).val, h1⟩ : Fin 512) := by
    funext a
    apply Fin.ext
    match a with
    | ⟨0, _⟩ => rfl
    | ⟨1, _⟩ => rfl
  have he : ((cfg0.win 1).blk t).view.emb y = ix2 (⟨(y 0).val, h0⟩ : Fin 2048) (col t (⟨(y 1).val, h1⟩ : Fin 512)) := by
    funext a
    apply Fin.ext
    match a with
    | ⟨0, _⟩ => show win0_1.index t (0 : Fin 2) * 2048 + 1 * (y 0).val = (y 0).val; rw [e2]; omega
    | ⟨1, _⟩ => show win0_1.index t (1 : Fin 2) * 512 + 1 * (y 1).val = 512 * t.val + (y 1).val; rw [e3]; omega
  rw [hx, he]
  exact main_point m c hfin t _ _

/-- an index of the array lies in the block of point t iff each coordinate lies in the block's range on its axis -/
theorem mem_blk1 (t : Fin cfg0.N) (i : S2048x4096.Idx) :
    i ∈ ((cfg0.win 1).blk t).view.set
      ↔ ∀ a : Fin 2, win0_1.index t a * S2048x512.size a ≤ (i a).val
          ∧ (i a).val < win0_1.index t a * S2048x512.size a + S2048x512.size a := by
  show i ∈ ((View.whole main_v0_0).slice (win0_1.rect t)).set ↔ _
  rw [View.set_slice_whole, Rect.mem_set_unit]
  exact Iff.rfl

/-- the eight column blocks tile the array: the index (r, j) lies in the block of point j / 512, which is written back -/
theorem cover1 (i : S2048x4096.Idx) :
    ∃ t : Fin cfg0.N, (cfg0.win 1).flush t = true ∧ i ∈ ((cfg0.win 1).blk t).view.set := by
  have hi0 : (i 0).val < 2048 := (i 0).isLt
  have hi1 : (i 1).val < 4096 := (i 1).isLt
  have hN : cfg0.N = 8 := N_0
  refine ⟨⟨(i 1).val / 512, by omega⟩, flush0_1 _, ?_⟩
  rw [mem_blk1]
  obtain ⟨-, -, e2, e3⟩ := idx_facts ⟨(i 1).val / 512, by omega⟩
  intro a
  match a with
  | ⟨0, _⟩ =>
    show win0_1.index _ (0 : Fin 2) * 2048 ≤ (i 0).val ∧ (i 0).val < win0_1.index _ (0 : Fin 2) * 2048 + 2048
    rw [e2]; omega
  | ⟨1, _⟩ =>
    show win0_1.index _ (1 : Fin 2) * 512 ≤ (i 1).val ∧ (i 1).val < win0_1.index _ (1 : Fin 2) * 512 + 512
    rw [e3]
    show (i 1).val / 512 * 512 ≤ (i 1).val ∧ (i 1).val < (i 1).val / 512 * 512 + 512
    omega

/-- the main block: the new centre in row 0, the scaled generators below -/
theorem final1 (c : Dev nD) (hfin : ∀ i, ∃ r : ℝ, m ((c : Thread nD τ).loc main_arg0) i = (r : EReal)) :
    (dats m 0 c).arrAt 1 cfg0.N = Spec.mainA (m ((c : Thread nD τ).loc main_arg0)) :=
  (dats m 0 c).arrAt_eq_of_cover 1 (Spec.mainA (xarr m c)) (fun t _ => flushed1_eq m c hfin t) cover1

end Cert.KernelIdeal.KerValue

end
-- ==== Proof.KerValue23.lean ====
/-
  The two one-row arrays the Pallas region leaves, at the ideal instance, as functions of the argument x (all of
  whose entries are real numbers): grid point t writes back columns 512 t .. 512 t + 511 of the row of new error
  terms and of the row of crossing flags; a block's column q is column 512 t + q of x, and the eight blocks tile
  each row.
-/
import proofs.«129838_j46454366273944_1_alg».proof.Proof.Gen.KernelIdeal.Frame
import proofs.«129838_j46454366273944_1_alg».proof.Proof.KerPieces
import proofs.«129838_j46454366273944_1_alg».proof.Proof.KerCol
import proofs.«129838_j46454366273944_1_alg».proof.Proof.Spec
import Idealize.ShloMosaic.Lib.Pipeline.Value
import Idealize.ShloMosaic.Lib.ValueIdx

noncomputable section

open scoped BigOperators

namespace Cert.KernelIdeal.KerValue23

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The argument array as the region finds it, at its literal type. -/
abbrev xarr (c : Dev nD) : Vec Ideal S2048x4096 .f32 := V m c main_arg0

/-- The input block at grid point `t`, at its literal type. -/
abbrev xblk (c : Dev nD) (t : Fin cfg0.N) : Vec Ideal S2048x512 .f32 := iblk m c 0 t

theorem xarr_eq (c : Dev nD) : xarr m c = m ((c : Thread nD τ).loc main_arg0) := V_main_arg0 m c

/-- The block index maps over the grid: every window's block at point `t` is block `(0, t)`. -/
theorem idx_facts : ∀ t : Fin cfg0.N, win0_0.index t (0 : Fin 2) = 0 ∧ win0_0.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- Column `q` of block `t` is a column of the array. -/
theorem col_lt (t : Fin cfg0.N) (q : Fin 512) : 512 * t.val + q.val < 4096 := by
  have hN : cfg0.N = 8 := N_0
  have := t.isLt
  have := q.isLt
  omega

/-- Column `q` of block `t`, as a column of the array. -/
abbrev col (t : Fin cfg0.N) (q : Fin 512) : Fin 4096 := ⟨512 * t.val + q.val, col_lt t q⟩

/-- The input block at point `t` read at `(p, q)` is the argument at `(p, 512 t + q)`. -/
theorem xblk_apply (c : Dev nD) (t : Fin cfg0.N) (p : Fin 2048) (q : Fin 512) :
    xblk m c t (ix2 p q) = m ((c : Thread nD τ).loc main_arg0) (ix2 p (col t q)) := by
  obtain ⟨e0, e1, -⟩ := idx_facts t
  show iblk m c 0 t (ix2 p q) = _
  unfold iblk
  rw [View.read_apply]
  show V m c main_arg0 _ = m (c.tc.loc main_arg0) _
  unfold V
  congr 1
  funext a
  apply Fin.ext
  match a with
  | ⟨0, _⟩ => show win0_0.index t 0 * 2048 + 1 * p.val = p.val; rw [e0]; omega
  | ⟨1, _⟩ => show win0_0.index t 1 * 512 + 1 * q.val = 512 * t.val + q.val; rw [e1]; omega

/-- With the argument real everywhere, so is every input block. -/
theorem xblk_fin (c : Dev nD) (hfin : ∀ i, ∃ r : ℝ, m ((c : Thread nD τ).loc main_arg0) i = (r : EReal))
    (t : Fin cfg0.N) : ∀ i, ∃ r : ℝ, xblk m c t i = (r : EReal) := by
  intro i
  obtain ⟨p, q, rfl⟩ : ∃ (p : Fin 2048) (q : Fin 512), i = ix2 p q := ⟨i 0, i 1, eq_ix2 i⟩
  rw [xblk_apply]
  exact hfin _

/-- The centre of column `q` of block `t` is the centre of column `512 t + q` of the argument. -/
theorem b0_xblk (c : Dev nD) (t : Fin cfg0.N) (q : Fin 512) :
    KerCol.b0 (xblk m c t) q = Spec.x0 (m ((c : Thread nD τ).loc main_arg0)) (col t q) := by
  unfold KerCol.b0 Spec.x0
  exact xblk_apply m c t _ q

/-- The absolute sum of the generators of column `q` of block `t` is that of column `512 t + q` of the argument. -/
theorem bsum_xblk (c : Dev nD) (t : Fin cfg0.N) (q : Fin 512) :
    KerCol.bsum (xblk m c t) q = Spec.asum (m ((c : Thread nD τ).loc main_arg0)) (col t q) := by
  unfold KerCol.bsum Spec.asum
  refine Finset.sum_congr rfl fun k _ => ?_
  rw [xblk_apply]

/-- The row of new error terms the body computes from block `t`, at column `q`. -/
theorem newval_blk (c : Dev nD) (hfin : ∀ i, ∃ r : ℝ, m ((c : Thread nD τ).loc main_arg0) i = (r : EReal))
    (t : Fin cfg0.N) (j : S1x512.Idx) :
    k0_pay1 (F := Ideal) (k0_pay6 (xblk m c t)) (k0_pay9 (xblk m c t)) j
      = Spec.newvalA (m ((c : Thread nD τ).loc main_arg0)) (col t (j 1)) := by
  obtain ⟨p, q, rfl⟩ : ∃ (p : Fin 1) (q : Fin 512), j = ix2 p q := ⟨j 0, j 1, eq_ix2 j⟩
  obtain rfl : p = ⟨0, by decide⟩ := Fin.ext (by have := p.isLt; omega)
  refine (KerCol.pay1_apply (xblk m c t) (xblk_fin m c hfin t) q).trans ?_
  rw [b0_xblk, bsum_xblk]
  rfl

/-- The row of crossing flags the body computes from block `t`, at column `q`. -/
theorem crossf_blk (c : Dev nD) (hfin : ∀ i, ∃ r : ℝ, m ((c : Thread nD τ).loc main_arg0) i = (r : EReal))
    (t : Fin cfg0.N) (j : S1x512.Idx) :
    k0_pay6 (F := Ideal) (xblk m c t) j = Spec.crossfA (m ((c : Thread nD τ).loc main_arg0)) (col t (j 1)) := by
  obtain ⟨p, q, rfl⟩ : ∃ (p : Fin 1) (q : Fin 512), j = ix2 p q := ⟨j 0, j 1, eq_ix2 j⟩
  obtain rfl : p = ⟨0, by decide⟩ := Fin.ext (by have := p.isLt; omega)
  refine (KerCol.pay6_apply (xblk m c t) (xblk_fin m c hfin t) q).trans ?_
  rw [b0_xblk, bsum_xblk]
  rfl

/-- What point `t` writes back of the row of new error terms is block `t` of the specification's row. -/
theorem flushed2_eq (c : Dev nD) (hfin : ∀ i, ∃ r : ℝ, m ((c : Thread nD τ).loc main_arg0) i = (r : EReal))
    (t : Fin cfg0.N) :
    (dats m 0 c).flushed 2 t
      = ((cfg0.win 2).blk t).view.read (Elt Ideal) (Spec.newvalRow (m ((c : Thread nD τ).loc main_arg0))) := by
  show (cfg0.win 2).cut (grid0.coords t) ((dats m 0 c).after 2 t) = _
  rw [after0_2]
  unfold outsAt0
  dsimp only
  rw [KerPieces.out2_eq]
  obtain ⟨-, -, e0, e1, -⟩ := idx_facts t
  funext j
  refine (newval_blk m c hfin t j).trans ?_
  rw [View.read_apply]
  unfold Spec.newvalRow Spec.newvalA
  have hcol : col t (j 1) = (((cfg0.win 2).blk t).view.emb j) 1 := by
    apply Fin.ext
    show 512 * t.val + (j 1).val = win0_2.index t 1 * 512 + 1 * (j 1).val
    rw [e1]; omega
  rw [hcol]
  rfl

/-- What point `t` writes back of the row of crossing flags is block `t` of the specification's row. -/
theorem flushed3_eq (c : Dev nD) (hfin : ∀ i, ∃ r : ℝ, m ((c : Thread nD τ).loc main_arg0) i = (r : EReal))
    (t : Fin cfg0.N) :
    (dats m 0 c).flushed 3 t
      = ((cfg0.win 3).blk t).view.read (Elt Ideal) (Spec.crossfRow (m ((c : Thread nD τ).loc main_arg0))) := by
  show (cfg0.win 3).cut (grid0.coords t) ((dats m 0 c).after 3 t) = _
  rw [after0_3]
  unfold outsAt0
  dsimp only
  rw [KerPieces.out3_eq]
  obtain ⟨-, -, -, -, e0, e1⟩ := idx_facts t
  funext j
  refine (crossf_blk m c hfin t j).trans ?_
  rw [View.read_apply]
  unfold Spec.crossfRow Spec.crossfA
  have hcol : col t (j 1) = (((cfg0.win 3).blk t).view.emb j) 1 := by
    apply Fin.ext
    show 512 * t.val + (j 1).val = win0_3.index t 1 * 512 + 1 * (j 1).val
    rw [e1]; omega
  rw [hcol]
  rfl

/-- An index of the row of new error terms is in point `t`'s block iff each coordinate is in the block's range. -/
theorem mem_blk2 (t : Fin cfg0.N) (i : S1x4096.Idx) :
    i ∈ ((cfg0.win 2).blk t).view.set ↔ ∀ a : Fin 2, win0_2.index t a * S1x512.size a ≤ (i a).val
      ∧ (i a).val < win0_2.index t a * S1x512.size a + S1x512.size a := by
  show i ∈ ((View.whole main_v0_1).slice (win0_2.rect t)).set ↔ _
  rw [View.set_slice_whole, Rect.mem_set_unit]
  exact Iff.rfl

/-- The same for the row of crossing flags. -/
theorem mem_blk3 (t : Fin cfg0.N) (i : S1x4096.Idx) :
    i ∈ ((cfg0.win 3).blk t).view.set ↔ ∀ a : Fin 2, win0_3.index t a * S1x512.size a ≤ (i a).val
      ∧ (i a).val < win0_3.index t a * S1x512.size a + S1x512.size a := by
  show i ∈ ((View.whole main_v0_2).slice (win0_3.rect t)).set ↔ _
  rw [View.set_slice_whole, Rect.mem_set_unit]
  exact Iff.rfl

/-- The eight blocks tile the row of new error terms: column `k` lies in the block of point `k / 512`. -/
theorem cover2 (i : S1x4096.Idx) :
    ∃ t : Fin cfg0.N, (cfg0.win 2).flush t = true ∧ i ∈ ((cfg0.win 2).blk t).view.set := by
  have hi0 : (i 0).val < 1 := (i 0).isLt
  have hi1 : (i 1).val < 4096 := (i 1).isLt
  have hN : cfg0.N = 8 := N_0
  obtain ⟨t, ht⟩ : ∃ t : Fin cfg0.N, t.val = (i 1).val / 512 := ⟨⟨(i 1).val / 512, by omega⟩, rfl⟩
  obtain ⟨-, -, e0, e1, -⟩ := idx_facts t
  refine ⟨t, flush0_2 t, ?_⟩
  rw [mem_blk2]
  intro a
  match a with
  | ⟨0, _⟩ =>
    show win0_2.index t 0 * 1 ≤ (i 0).val ∧ (i 0).val < win0_2.index t 0 * 1 + 1
    rw [e0]; omega
  | ⟨1, _⟩ =>
    show win0_2.index t 1 * 512 ≤ (i 1).val ∧ (i 1).val < win0_2.index t 1 * 512 + 512
    rw [e1, ht]; omega

/-- The eight blocks tile the row of crossing flags likewise. -/
theorem cover3 (i : S1x4096.Idx) :
    ∃ t : Fin cfg0.N, (cfg0.win 3).flush t = true ∧ i ∈ ((cfg0.win 3).blk t).view.set := by
  have hi0 : (i 0).val < 1 := (i 0).isLt
  have hi1 : (i 1).val < 4096 := (i 1).isLt
  have hN : cfg0.N = 8 := N_0
  obtain ⟨t, ht⟩ : ∃ t : Fin cfg0.N, t.val = (i 1).val / 512 := ⟨⟨(i 1).val / 512, by omega⟩, rfl⟩
  obtain ⟨-, -, -, -, e0, e1⟩ := idx_facts t
  refine ⟨t, flush0_3 t, ?_⟩
  rw [mem_blk3]
  intro a
  match a with
  | ⟨0, _⟩ =>
    show win0_3.index t 0 * 1 ≤ (i 0).val ∧ (i 0).val < win0_3.index t 0 * 1 + 1
    rw [e0]; omega
  | ⟨1, _⟩ =>
    show win0_3.index t 1 * 512 ≤ (i 1).val ∧ (i 1).val < win0_3.index t 1 * 512 + 512
    rw [e1, ht]; omega

/-- the row of new error terms -/
theorem final2 (c : Dev nD) (hfin : ∀ i, ∃ r : ℝ, m ((c : Thread nD τ).loc main_arg0) i = (r : EReal)) :
    (dats m 0 c).arrAt 2 cfg0.N = Spec.newvalRow (m ((c : Thread nD τ).loc main_arg0)) :=
  (dats m 0 c).arrAt_eq_of_cover 2 (Spec.newvalRow (m ((c : Thread nD τ).loc main_arg0)))
    (fun t _ => flushed2_eq m c hfin t) (fun i => cover2 i)

/-- the row of crossing flags -/
theorem final3 (c : Dev nD) (hfin : ∀ i, ∃ r : ℝ, m ((c : Thread nD τ).loc main_arg0) i = (r : EReal)) :
    (dats m 0 c).arrAt 3 cfg0.N = Spec.crossfRow (m ((c : Thread nD τ).loc main_arg0)) :=
  (dats m 0 c).arrAt_eq_of_cover 3 (Spec.crossfRow (m ((c : Thread nD τ).loc main_arg0)))
    (fun t _ => flushed3_eq m c hfin t) (fun i => cover3 i)

end Cert.KernelIdeal.KerValue23

end
-- ==== Proof.LibCumsum.lean ====
/-
  The running sum of a vector of words that are each 0 or 1, taken as a windowed reduction (a reduce_window of width
  4096 over the vector padded 4095 low, body integer addition): the inclusive sum at column j less the word at j —
  the number of ones before j — is a natural number below 4096. General in the vector; nothing here names a program.
-/
import Idealize.ShloMosaic.PureOps

noncomputable section

open scoped BigOperators

namespace Cert.LibCumsum

open Idealize.ShloMosaic

abbrev S4096 : Shape := ⟨1, ![4096]⟩
abbrev S_ : Shape := ⟨0, ![]⟩

/-- Adding words that are each at most one, starting from a word `a`, does not wrap while `a` plus the number of
    words stays below 2³²: the fold's value is `a` plus the sum of the words' values. -/
private theorem foldl_toNat {ι : Type} (g : ι → BitVec 32) (hg : ∀ n, (g n).toNat ≤ 1) :
    ∀ (l : List ι) (a : BitVec 32), a.toNat + l.length < 2 ^ 32 →
      (l.foldl (fun r n => IntOp.addi r (g n)) a).toNat = a.toNat + (l.map fun n => (g n).toNat).sum
  | [], a, _ => by simp
  | n :: l, a, h => by
      have hn := hg n
      simp only [List.length_cons] at h
      have h1 : (IntOp.addi a (g n)).toNat = a.toNat + (g n).toNat := by
        unfold IntOp.addi
        rw [BitVec.toNat_add]
        apply Nat.mod_eq_of_lt
        omega
      rw [List.foldl_cons, foldl_toNat g hg l _ (by rw [h1]; omega), h1, List.map_cons, List.sum_cons]
      omega

/-- A sum of naturals that are each at most one is at most the number of terms. -/
private theorem sum_le_card {ι : Type} (s : Finset ι) (f : ι → ℕ) (hf : ∀ n, f n ≤ 1) : ∑ n ∈ s, f n ≤ s.card := by
  classical
  induction s using Finset.induction_on with
  | empty => simp
  | insert a s ha ih =>
    rw [Finset.sum_insert ha, Finset.card_insert_of_notMem ha]
    have := hf a
    omega

/-- The sum of 4096 words, each 0 or 1, less one of them: the other 4095 words sum to at most 4095. -/
private theorem core {N : Nat} (hN : N = 4096) (g : Fin N → BitVec 32) (hg : ∀ n, g n = 0#32 ∨ g n = 1#32)
    (n₀ : Fin N) (x a : BitVec 32) (ha : a = 0#32) (hx : g n₀ = x) :
    (IntOp.subi ((List.finRange N).foldl (fun r n => IntOp.addi r (g n)) a) x).toNat < 4096 := by
  subst ha hx
  have hg1 : ∀ n, (g n).toNat ≤ 1 := fun n => by rcases hg n with e | e <;> rw [e] <;> decide
  have hf := foldl_toNat g hg1 (List.finRange N) 0#32 (by rw [List.length_finRange, hN]; decide)
  rw [← Fin.sum_univ_def] at hf
  have hs : (g n₀).toNat + ∑ n ∈ Finset.univ.erase n₀, (g n).toNat = ∑ n, (g n).toNat :=
    Finset.add_sum_erase Finset.univ (fun n => (g n).toNat) (Finset.mem_univ n₀)
  have hb : ∑ n ∈ Finset.univ.erase n₀, (g n).toNat ≤ (Finset.univ.erase n₀).card :=
    sum_le_card _ (fun n => (g n).toNat) hg1
  have hc : (Finset.univ.erase n₀).card = N - 1 := by
    rw [Finset.card_erase_of_mem (Finset.mem_univ _), Finset.card_univ, Fintype.card_fin]
  rw [hc] at hb
  unfold IntOp.subi
  rw [BitVec.toNat_sub, hf]
  have := hg1 n₀
  simp only [BitVec.toNat_ofNat, Nat.zero_mod, Nat.zero_add]
  omega

/-- The exclusive running count of ones before position `j` is below 4096 (so it is a non-negative 32-bit integer and
    a valid row number of a 4096-row block). -/
theorem excl_lt (v : S4096.Idx → BitVec 32) (hv : ∀ k, v k = 0#32 ∨ v k = 1#32)
    (init : S_.Idx → BitVec 32) (h0 : ∀ i, init i = 0#32)
    (h : S4096.ReduceWindows (![4096] : Fin 1 → Nat) ![1] ![4095] ![0] S4096) (hu : 0 < S_.numel) (j : S4096.Idx) :
    (IntOp.subi (Host.reduceWindow IntOp.addi ![4096] ![1] ![4095] ![0] v init h hu j) (v j)).toNat < 4096 := by
  have hN : (⟨1, ![4096]⟩ : Shape).numel = 4096 := Shape.numel_rank1 _
  unfold Host.reduceWindow
  dsimp only
  -- the window position whose padded coordinate is column j itself: 4095
  let c : (⟨1, ![4096]⟩ : Shape).Idx := fun d => match d with | ⟨0, _⟩ => (⟨4095, by decide⟩ : Fin 4096)
  refine core hN _ ?_ ((⟨1, ![4096]⟩ : Shape).rowMajor c) (v j) _ (h0 _) ?_
  · intro n
    split
    · exact hv _
    · exact Or.inl (h0 _)
  · have hj : (j 0).val < 4096 := (j 0).isLt
    rw [dif_pos]
    · congr 1
      funext a
      match a with
      | ⟨0, _⟩ =>
        apply Fin.ext
        simp only [Equiv.symm_apply_apply]
        show (j 0).val * 1 + 4095 - 4095 = (j 0).val
        omega
    · intro a
      match a with
      | ⟨0, _⟩ =>
        rw [Equiv.symm_apply_apply]
        show 4095 ≤ (j 0).val * 1 + 4095 ∧ (j 0).val * 1 + 4095 - 4095 < 4096
        omega

end Cert.LibCumsum

end
-- ==== Proof.ScatterCols.lean ====
/-
  The accumulating scatter of one value per column at (row, column) pairs, read at an element at the ideal
  instance: with column j's pair (r j, j), element (R, C) is the operand there plus the update of column C when
  r C = R, and the operand alone otherwise (distinct columns land on distinct elements, so no two updates meet).
  Beside it, how both programs build the index array: the normalisation of a non-negative index is the index, the
  iota's word at j is j, and the (row, column) array is the two vectors side by side.
-/
import Idealize.ShloMosaic.PureOps
import Idealize.ShloMosaic.PureOps.Ideal
import Idealize.ShloMosaic.Lib.ValueIdx
import Idealize.ShloMosaic.Lib.Pipeline.Value

noncomputable section

open scoped BigOperators

namespace Cert.ScatterCols

open Idealize.ShloMosaic Idealize.ShloMosaic.ValueIdx

abbrev S4096 : Shape := ⟨1, ![4096]⟩
abbrev S4096x1 : Shape := ⟨2, ![4096, 1]⟩
abbrev S4096x2 : Shape := ⟨2, ![4096, 2]⟩

/-- An update index lands at an operand index exactly when start plus window coordinate is that index's coordinate
    on every axis (then the sum is inside the operand, and its natural-number part is the coordinate). -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i H
      have e := Option.some.inj h
      intro a
      rw [← e]
      have := (H a).1
      simp only [Int.toNat_of_nonneg this]
    · cases h
  · intro h
    have H : ∀ a, 0 ≤ d.start j idx a + (d.window j a : Int) ∧ d.start j idx a + (d.window j a : Int) < (s.size a : Int) :=
      fun a => by rw [h a]; exact ⟨by omega, by exact_mod_cast (i a).isLt⟩
    rw [dif_pos H]
    refine congrArg some (funext fun a => Fin.ext ?_)
    show (d.start j idx a + (d.window j a : Int)).toNat = (i a).val
    rw [h a]; simp

/-- The dimension numbers of the scatter at (row, column) pairs: no window axes, both operand axes inserted, the index
    vector along axis 1 of the index array, its two components the row and the column. -/
private abbrev pairDims {N : Nat}
    (hwf : ScatterDims.WF (⟨2, ![N, 4096]⟩ : Shape) S4096x2 S4096 [] [0, 1] [0, 1] 1) :
    ScatterDims (⟨2, ![N, 4096]⟩ : Shape) S4096x2 S4096 := ⟨[], [0, 1], [0, 1], 1, hwf⟩

/-- Update index c reads component k of its start index at (c, k) of the index array. -/
private theorem pairDims_siIdx {N : Nat}
    (hwf : ScatterDims.WF (⟨2, ![N, 4096]⟩ : Shape) S4096x2 S4096 [] [0, 1] [0, 1] 1) (c : Fin 4096) (k : Fin 2) :
    (pairDims hwf).siIdx (ix1 c) k = ix2 c k := by
  funext b
  match b with
  | ⟨0, _⟩ => rfl
  | ⟨1, _⟩ => rfl

/-- Both operand axes are inserted, so the window coordinate is 0 on each. -/
private theorem pairDims_window {N : Nat}
    (hwf : ScatterDims.WF (⟨2, ![N, 4096]⟩ : Shape) S4096x2 S4096 [] [0, 1] [0, 1] 1) (c : Fin 4096) (a : Fin 2) :
    (pairDims hwf).window (ix1 c) a = 0 := by
  unfold ScatterDims.window
  have h : (pairDims hwf).sKept = [] := rfl
  rw [dif_neg (by rw [h]; exact List.not_mem_nil)]

/-- The start on operand axis a for update index c is the signed word at (c, a) of the index array. -/
private theorem pairDims_start {N : Nat}
    (hwf : ScatterDims.WF (⟨2, ![N, 4096]⟩ : Shape) S4096x2 S4096 [] [0, 1] [0, 1] 1) (idx : IVec S4096x2 32)
    (c : Fin 4096) (a : Fin 2) :
    (pairDims hwf).start (ix1 c) idx a = (idx (ix2 c a)).toInt := by
  unfold ScatterDims.start
  match a with
  | ⟨0, h0⟩ =>
    have hm : (⟨0, h0⟩ : Fin 2) ∈ (pairDims hwf).scatterDimsToOperandDims := List.mem_cons_self
    rw [dif_pos hm]
    exact congrArg (fun z => (idx z).toInt) (pairDims_siIdx hwf c _)
  | ⟨1, h1⟩ =>
    have hm : (⟨1, h1⟩ : Fin 2) ∈ (pairDims hwf).scatterDimsToOperandDims :=
      List.mem_cons_of_mem _ List.mem_cons_self
    rw [dif_pos hm]
    exact congrArg (fun z => (idx z).toInt) (pairDims_siIdx hwf c _)

/-- Column c's update lands at element (r c, c). -/
private theorem pairDims_resultIdx {N : Nat}
    (hwf : ScatterDims.WF (⟨2, ![N, 4096]⟩ : Shape) S4096x2 S4096 [] [0, 1] [0, 1] 1) (idx : IVec S4096x2 32)
    (r : Fin 4096 → Fin N)
    (hr : ∀ j : Fin 4096, (idx (ix2 j (⟨0, by decide⟩ : Fin 2))).toInt = ((r j).val : Int))
    (hc : ∀ j : Fin 4096, (idx (ix2 j (⟨1, by decide⟩ : Fin 2))).toInt = (j.val : Int))
    (c : Fin 4096) :
    (pairDims hwf).resultIdx? (ix1 c) idx = some (ix2 (r c) c) := by
  rw [resultIdx?_eq_some_iff]
  intro a
  rw [pairDims_start, pairDims_window]
  match a with
  | ⟨0, _⟩ => rw [hr]; simp
  | ⟨1, _⟩ => rw [hc]; simp

/-- The accumulating scatter at (row, column) pairs, at an element. `N` is the operand's number of rows. -/
theorem scatterAdd_pairs {N : Nat}
    (hwf : ScatterDims.WF (⟨2, ![N, 4096]⟩ : Shape) S4096x2 S4096 [] [0, 1] [0, 1] 1)
    (base : (⟨2, ![N, 4096]⟩ : Shape).Idx → EReal) (idx : IVec S4096x2 32) (upd : S4096.Idx → EReal)
    (r : Fin 4096 → Fin N)
    (hr : ∀ j : Fin 4096, (idx (ix2 j (⟨0, by decide⟩ : Fin 2))).toInt = ((r j).val : Int))
    (hc : ∀ j : Fin 4096, (idx (ix2 j (⟨1, by decide⟩ : Fin 2))).toInt = (j.val : Int))
    (R : Fin N) (C : Fin 4096) :
    Ideal.hostScatterAdd (⟨[], [0, 1], [0, 1], 1, hwf⟩ : ScatterDims (⟨2, ![N, 4096]⟩ : Shape) S4096x2 S4096) base idx upd (ix2 R C)
      = base (ix2 R C) + (if r C = R then upd (ix1 C) else 0) := by
  unfold Ideal.hostScatterAdd
  refine congrArg (fun z => base (ix2 R C) + z) ?_
  -- an update landing at (R, C) is column C's, and then r C = R
  have key : ∀ c : Fin 4096, (pairDims hwf).resultIdx? (ix1 c) idx = some (ix2 R C) → c = C ∧ r c = R := by
    intro c hres
    rw [pairDims_resultIdx hwf idx r hr hc c] at hres
    have e := Option.some.inj hres
    have e1 : (ix2 (r c) c : (⟨2, ![N, 4096]⟩ : Shape).Idx) (⟨1, by decide⟩ : Fin 2)
        = (ix2 R C : (⟨2, ![N, 4096]⟩ : Shape).Idx) (⟨1, by decide⟩ : Fin 2) := congrFun e _
    have e0 : (ix2 (r c) c : (⟨2, ![N, 4096]⟩ : Shape).Idx) (⟨0, by decide⟩ : Fin 2)
        = (ix2 R C : (⟨2, ![N, 4096]⟩ : Shape).Idx) (⟨0, by decide⟩ : Fin 2) := congrFun e _
    exact ⟨e1, e0⟩
  by_cases h : r C = R
  · -- the updates landing at (R, C) are column C's alone
    rw [if_pos h]
    rw [Finset.sum_eq_single (ix1 C)]
    · intro j hj hne
      obtain ⟨c, rfl⟩ : ∃ c, j = ix1 c := ⟨j 0, eq_ix1 j⟩
      have hcC := (key c (Finset.mem_filter.1 hj).2).1
      exact absurd (by rw [hcC]) hne
    · intro hn
      exfalso
      apply hn
      rw [Finset.mem_filter]
      refine ⟨Finset.mem_univ _, ?_⟩
      rw [pairDims_resultIdx hwf idx r hr hc C, h]
  · -- no update lands at (R, C)
    rw [if_neg h]
    apply Finset.sum_eq_zero
    intro j hj
    obtain ⟨c, rfl⟩ : ∃ c, j = ix1 c := ⟨j 0, eq_ix1 j⟩
    obtain ⟨hcC, hrR⟩ := key c (Finset.mem_filter.1 hj).2
    subst hcC
    exact absurd hrR h

/-- The (row, column) index array read at its two columns. -/
theorem pairs_row (hb : S4096.BroadcastsInDim S4096x1 (![0] : Fin 1 → Fin S4096x1.rank))
    (hcat : Shape.Concatenates [S4096x1, S4096x1] S4096x2 1) (r c : IVec S4096 32) (j : Fin 4096) :
    concatenate S4096x2 1 [⟨S4096x1, broadcastInDim S4096x1 ![0] hb r⟩, ⟨S4096x1, broadcastInDim S4096x1 ![0] hb c⟩] hcat
      (ix2 j (⟨0, by decide⟩ : Fin 2)) = r (ix1 j) := by
  -- column 0 falls in the first piece, at the same coordinates; the broadcast along a new unit axis reads the vector at j
  refine (concatenate_pair_apply_left (1 : Fin S4096x2.rank) _ _ hcat (ix2 j (⟨0, by decide⟩ : Fin 2)) rfl
    (ix2 j (⟨0, by decide⟩ : Fin 1)) (fun b => match b with | ⟨0, _⟩ => rfl | ⟨1, _⟩ => rfl)).trans ?_
  exact broadcastInDim_apply _ hb r _ (ix1 j) (fun a => match a with | ⟨0, _⟩ => rfl)

theorem pairs_col (hb : S4096.BroadcastsInDim S4096x1 (![0] : Fin 1 → Fin S4096x1.rank))
    (hcat : Shape.Concatenates [S4096x1, S4096x1] S4096x2 1) (r c : IVec S4096 32) (j : Fin 4096) :
    concatenate S4096x2 1 [⟨S4096x1, broadcastInDim S4096x1 ![0] hb r⟩, ⟨S4096x1, broadcastInDim S4096x1 ![0] hb c⟩] hcat
      (ix2 j (⟨1, by decide⟩ : Fin 2)) = c (ix1 j) := by
  -- column 1 falls in the second piece, at column 1 - 1 = 0 of it
  refine (concatenate_pair_apply_right (1 : Fin S4096x2.rank) _ _ hcat (ix2 j (⟨1, by decide⟩ : Fin 2)) rfl rfl
    (ix2 j (⟨0, by decide⟩ : Fin 1))
    (fun b hb' => match b, hb' with | ⟨0, _⟩, _ => rfl | ⟨1, _⟩, hb' => absurd rfl hb') rfl).trans ?_
  exact broadcastInDim_apply _ hb c _ (ix1 j) (fun a => match a with | ⟨0, _⟩ => rfl)

/-- The index normalisation `select (v < 0) (v + n) v` of a word that is non-negative as a signed integer is the word. -/
theorem norm_nonneg (n v : BitVec 32) (hv : 0 ≤ v.toInt) :
    Scalar.select (IntOp.cmpi .slt v 0#32) (IntOp.addi v n) v = v := by
  -- the signed comparison v < 0 is false, so its bit is 0 and the select takes its second operand
  have h : IntOp.cmpi .slt v 0#32 = 0#1 := by
    unfold IntOp.cmpi
    have : v.slt 0#32 = false := by
      rw [BitVec.slt_eq_decide]
      simp only [BitVec.toInt_zero, decide_eq_false_iff_not, not_lt]
      exact hv
    simp only [this]
    rfl
  rw [h]
  exact select_zero _ _

/-- The iota over the columns at column `j` is the word `j`, whose signed value is `j`. -/
theorem iota_apply (j : Fin 4096) : iotaInDim S4096 32 0 (ix1 j) = BitVec.ofNat 32 j.val := by
  rfl

theorem iota_toInt (j : Fin 4096) : (iotaInDim S4096 32 0 (ix1 j)).toInt = (j.val : Int) := by
  -- j < 4096 < 2 ^ 31: the word j is j as a natural number and non-negative as a signed one
  rw [iota_apply]
  have := j.isLt
  rw [BitVec.toInt_eq_toNat_cond, BitVec.toNat_ofNat]
  have h : j.val % 2 ^ 32 = j.val := Nat.mod_eq_of_lt (by omega)
  rw [h, if_pos (by omega)]

end Cert.ScatterCols

end
-- ==== Proof.KerIsG.lean ====
/-
  The kernel program's host tail applied to the specification's three arrays is the specification `Spec.G`: a
  crossing flag 0.0 / 1.0 converted to a 32-bit integer is the flag's word, so both programs take the same running
  count; that count is below 4096, so it is a row of the 4096 x 4096 block; the accumulating scatter into zeros puts
  column j's new error term at (count before j, j) and zero elsewhere; and the concatenation puts that block below
  the main block.
-/
import proofs.«129838_j46454366273944_1_alg».proof.Proof.Gen.KernelIdeal
import proofs.«129838_j46454366273944_1_alg».proof.Proof.KerTerm
import proofs.«129838_j46454366273944_1_alg».proof.Proof.Spec
import proofs.«129838_j46454366273944_1_alg».proof.Proof.LibCumsum
import proofs.«129838_j46454366273944_1_alg».proof.Proof.ScatterCols
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KerIsG

open Cert.KernelIdeal Cert.KernelIdeal.Gen Idealize.ShloMosaic Idealize.ShloMosaic.ValueIdx

/-- A one-bit word is 0 or 1. -/
private theorem bit_cases (b : BitVec 1) : b = 0#1 ∨ b = 1#1 := by
  rcases (by have := b.isLt; omega : b.toNat = 0 ∨ b.toNat = 1) with h | h
  · exact Or.inl (BitVec.eq_of_toNat_eq h)
  · exact Or.inr (BitVec.eq_of_toNat_eq h)

/-- The float 0.0 / 1.0 of a bit, converted to a signed 32-bit integer, is the bit's word. -/
private theorem fptosi_flag (b : BitVec 1) : Ideal.fptosi 32 (((b.toNat : ℝ) : EReal)) = b.setWidth 32 := by
  rcases bit_cases b with rfl | rfl
  · rw [Ideal.fptosi, Ideal.toIntClamped_coe]; norm_num
  · rw [Ideal.fptosi, Ideal.toIntClamped_coe]; norm_num

/-- The kernel program's flag words are the specification's: at column `j` the reshaped row reads the flag of column `j`. -/
private theorem ciK_eq (x : S2048x4096.Idx → EReal) : KerTerm.ciK (F := Ideal) (Spec.crossfRow x) = Spec.ciA x := by
  funext j
  obtain ⟨c, rfl⟩ : ∃ c, j = ix1 c := ⟨j 0, eq_ix1 j⟩
  show Ideal.fptosi 32 (shapeCast S4096 (Spec.crossfRow x) _ (ix1 c)) = _
  rw [shapeCast_1a_a_apply]
  exact fptosi_flag _

/-- Both running sums are the same windowed reduction from zero. -/
private theorem cum_eq (v : IVec S4096 32) : KerTerm.cum v = Spec.cum v := rfl

/-- The kernel program's row numbers are the specification's exclusive running count. -/
private theorem lrows_eq (x : S2048x4096.Idx → EReal) : KerTerm.lrows (F := Ideal) (Spec.crossfRow x) = Spec.lr x := by
  funext j
  show IntOp.subi (KerTerm.cum (KerTerm.ciK (F := Ideal) (Spec.crossfRow x)) j) (KerTerm.ciK (F := Ideal) (Spec.crossfRow x) j) = _
  rw [ciK_eq, cum_eq]
  rfl

/-- Each crossing flag's word is 0 or 1. -/
private theorem ciA_bit (x : S2048x4096.Idx → EReal) (k : S4096.Idx) : Spec.ciA x k = 0#32 ∨ Spec.ciA x k = 1#32 := by
  show (Spec.crossB _ _).setWidth 32 = 0#32 ∨ (Spec.crossB _ _).setWidth 32 = 1#32
  rcases bit_cases (Spec.crossB (Spec.x0 x (k 0)) (Spec.asum x (k 0))) with h | h
  · rw [h]; exact Or.inl (by decide)
  · rw [h]; exact Or.inr (by decide)

/-- The number of crossing columns before a column is below 4096. -/
private theorem lr_lt (x : S2048x4096.Idx → EReal) (j : S4096.Idx) : (Spec.lr x j).toNat < 4096 :=
  LibCumsum.excl_lt (Spec.ciA x) (ciA_bit x) (fun _ => 0#32) (fun _ => rfl) (by decide) (by decide) j

/-- The row of the 4096 x 4096 block that column `j`'s new error term goes to. -/
private def rowOf (x : S2048x4096.Idx → EReal) (j : Fin 4096) : Fin 4096 := ⟨(Spec.lr x (ix1 j)).toNat, lr_lt x _⟩

/-- Read as a signed integer, the count before column `j` is that row number. -/
private theorem lr_toInt (x : S2048x4096.Idx → EReal) (j : Fin 4096) : (Spec.lr x (ix1 j)).toInt = ((rowOf x j).val : Int) := by
  have h := lr_lt x (ix1 j)
  rw [BitVec.toInt_eq_toNat_of_lt (by omega)]
  rfl

/-- The normalisation of an index vector at a column where its word is non-negative is the word. -/
private theorem norm_apply (n : BitVec 32) (v : IVec S4096 32) (j : S4096.Idx) (hv : 0 ≤ (v j).toInt) :
    KerTerm.norm n v j = v j :=
  ScatterCols.norm_nonneg n (v j) hv

/-- The accumulating scatter of the new error terms into zeros, at an element. -/
private theorem extra_apply (x : S2048x4096.Idx → EReal) (R C : Fin 4096) :
    KerTerm.extra (F := Ideal) (Spec.newvalRow x) (Spec.crossfRow x) (ix2 R C)
      = if rowOf x C = R then Spec.newvalA x C else 0 := by
  have key := ScatterCols.scatterAdd_pairs (N := 4096) Facts₀.scatter_S4096x4096_S4096x2_S4096_n_01_01_1_wf
    (broadcastInDim S4096x4096 ![] Facts₀.bcast_S_S4096x4096 (constant (F := Ideal) S_ .f32 0x00000000#32))
    (KerTerm.idx2 (KerTerm.norm 4096#32 (KerTerm.lrows (F := Ideal) (Spec.crossfRow x))) (KerTerm.norm 4096#32 (iotaInDim S4096 32 0)))
    (shapeCast S4096 (Spec.newvalRow x) Facts₀.shapeCasts_S1x4096_S4096)
    (rowOf x)
    (fun j => by
      rw [KerTerm.idx2, ScatterCols.pairs_row, lrows_eq, norm_apply _ _ _ (by rw [lr_toInt]; omega), lr_toInt])
    (fun j => by
      rw [KerTerm.idx2, ScatterCols.pairs_col, norm_apply _ _ _ (by rw [ScatterCols.iota_toInt]; omega), ScatterCols.iota_toInt])
    R C
  refine Eq.trans key ?_
  have hb : broadcastInDim S4096x4096 ![] Facts₀.bcast_S_S4096x4096 (constant (F := Ideal) S_ .f32 0x00000000#32) (ix2 R C) = 0 := by
    show Ideal.ofBits .f32 0x00000000#32 = 0
    exact Ideal.ofBits_zero_f32
  rw [hb, zero_add, shapeCast_1a_a_apply]
  rfl

theorem kerOut_eq (x : S2048x4096.Idx → EReal) :
    KerTerm.kerOut (F := Ideal) (Spec.mainA x) (Spec.newvalRow x) (Spec.crossfRow x) = Spec.G x := by
  funext i
  obtain ⟨R, C, rfl⟩ : ∃ R C, i = ix2 R C := ⟨i 0, i 1, eq_ix2 i⟩
  by_cases hR : R.val < 2048
  · -- a row of the main block
    have hl := concatenate_pair_apply_left (t := S6144x4096) (s₁ := S2048x4096) (s₂ := S4096x4096) (0 : Fin 2)
      (Spec.mainA x) (KerTerm.extra (F := Ideal) (Spec.newvalRow x) (Spec.crossfRow x))
      Facts₀.concatenates_S2048x4096_S4096x4096_S6144x4096_d0 (ix2 R C) rfl (ix2 (⟨R.val, hR⟩ : Fin 2048) C)
      (fun b => match b with | ⟨0, _⟩ => rfl | ⟨1, _⟩ => rfl)
    refine Eq.trans hl ?_
    show _ = dite _ _ _
    rw [dif_pos hR]
  · -- a row of the block of new error terms
    have hR' : R.val - 2048 < 4096 := by have := R.isLt; omega
    have hr := concatenate_pair_apply_right (t := S6144x4096) (s₁ := S2048x4096) (s₂ := S4096x4096) (0 : Fin 2)
      (Spec.mainA x) (KerTerm.extra (F := Ideal) (Spec.newvalRow x) (Spec.crossfRow x))
      Facts₀.concatenates_S2048x4096_S4096x4096_S6144x4096_d0 (ix2 R C) rfl rfl (ix2 (⟨R.val - 2048, hR'⟩ : Fin 4096) C)
      (fun b => match b with | ⟨0, _⟩ => fun h => absurd rfl h | ⟨1, _⟩ => fun _ => rfl)
      (by show R.val - 2048 + 2048 = R.val; omega)
    refine Eq.trans hr ?_
    rw [extra_apply]
    show _ = dite _ _ _
    rw [dif_neg hR]
    show _ = if (Spec.lr x (ix1 C)).toNat + 2048 = R.val then Spec.newvalA x C else 0
    by_cases hc : (Spec.lr x (ix1 C)).toNat + 2048 = R.val
    · rw [if_pos hc, if_pos (Fin.ext (by show (Spec.lr x (ix1 C)).toNat = R.val - 2048; omega))]
    · rw [if_neg hc, if_neg (fun h => hc (by have := congrArg Fin.val h; change (Spec.lr x (ix1 C)).toNat = R.val - 2048 at this; omega))]

end Cert.KernelIdeal.KerIsG

end
-- ==== Proof.KerRun.lean ====
/-
  The kernel program at the ideal instance, run from an argument all of whose entries are real numbers, ends with its
  result at the specification `Spec.G` of the argument and the argument unchanged: the region leaves the
  specification's three arrays, and the host tail applied to them is the specification.
-/
import proofs.«129838_j46454366273944_1_alg».proof.Proof.KerTail
import proofs.«129838_j46454366273944_1_alg».proof.Proof.KerValue
import proofs.«129838_j46454366273944_1_alg».proof.Proof.KerValue23
import proofs.«129838_j46454366273944_1_alg».proof.Proof.KerIsG

noncomputable section

open scoped BigOperators

namespace Cert.KernelIdeal.KerRun

open Cert.KernelIdeal Cert.KernelIdeal.Gen Idealize.ShloMosaic Idealize.ShloMosaic.TcCoe Idealize.ShloMosaic.ValueIdx Idealize.SL.Sem

theorem run (m : (ℓ : Loc nD τ sig) → Buf (Elt Ideal) ℓ) (ρ : Dev nD → PrngReg)
    (hfin : ∀ (c : Dev nD) (i : S2048x4096.Idx), ∃ r : ℝ, m ((c : Thread nD τ).loc main_arg0) i = (r : EReal)) :
    θ_run defs (onTc (τ := τ) (main (F := Ideal))) ⟨m, fun _ => 0, ρ⟩ fun r => ∀ c : Dev nD,
      r.2.mem ((c : Thread nD τ).loc main_v22) = Spec.G (m ((c : Thread nD τ).loc main_arg0))
      ∧ r.2.mem ((c : Thread nD τ).loc main_arg0) = m ((c : Thread nD τ).loc main_arg0) :=
  (θ_run defs _ _).mono (fun r h c => ⟨by
      rw [(h c).1, KerValue.final1 m c (hfin c), KerValue23.final2 m c (hfin c), KerValue23.final3 m c (hfin c)]
      exact KerIsG.kerOut_eq _, (h c).2⟩)
    (KerTail.run_out m ρ)

end Cert.KernelIdeal.KerRun

end
-- ==== Proof.RefTerm.lean ====
/-
  The reference program's result as one pure function of its argument, stage by stage in the order its host
  operations compute them: the generators' absolute column sums, the bounds, the crossing and positive flags, the
  slope, delta, the new centre, the scaled generators, the running count of crossing columns, and the three
  scatters that assemble the 6144 x 4096 result.
-/
import proofs.«129838_j46454366273944_1_alg».proof.ReferenceIdeal

noncomputable section

namespace Cert.ReferenceIdeal.RefTerm

open Idealize.ShloMosaic Cert.ReferenceIdeal

variable {F : FTy → Type} [FloatOps F] [Facts]
open Facts₀ Facts

/-- a rank-0 float constant broadcast over the columns -/
def bc (w : BitVec 32) : FVec F S4096 .f32 := broadcastInDim S4096 ![] bcast_S_S4096 (constant S_ .f32 w)
/-- a rank-0 word constant broadcast over the columns -/
def bci (w : BitVec 32) : IVec S4096 32 := broadcastInDim S4096 ![] bcast_S_S4096 (constantI S_ 32 w)
/-- rows 1 .. 2047 -/
def gensIn (x : FVec F S2048x4096 .f32) : FVec F S2047x4096 .f32 :=
  extractStridedSlice S2047x4096 ![1, 0] x slices_S2048x4096_S2047x4096_1_0
/-- row 0 as a vector -/
def row0 (x : FVec F S2048x4096 .f32) : FVec F S4096 .f32 :=
  shapeCast S4096 (extractStridedSlice S1x4096 ![0, 0] x slices_S2048x4096_S1x4096_0_0) shapeCasts_S1x4096_S4096
/-- %2: the absolute column sums of the generators -/
def asum (x : FVec F S2048x4096 .f32) : FVec F S4096 .f32 :=
  Host.reduceAdd (Host.absf (gensIn x)) (constant S_ .f32 0x00000000#32) reducesTo_S2047x4096_S4096_d0 h_S_
/-- %5 -/
def upper (x : FVec F S2048x4096 .f32) : FVec F S4096 .f32 := addf (row0 x) (asum x)
/-- %8 -/
def lower (x : FVec F S2048x4096 .f32) : FVec F S4096 .f32 := subf (row0 x) (asum x)
/-- %11 -/
def crossB (x : FVec F S2048x4096 .f32) : IVec S4096 1 := cmpf .olt (mulf (lower x) (upper x)) (bc 0x00000000#32)
/-- %13 -/
def posB (x : FVec F S2048x4096 .f32) : IVec S4096 1 := cmpf .oge (lower x) (bc 0x00000000#32)
/-- %14 -/
def crossf (x : FVec F S2048x4096 .f32) : FVec F S4096 .f32 := uitofp .f32 (crossB x)
/-- %15 -/
def posf (x : FVec F S2048x4096 .f32) : FVec F S4096 .f32 := uitofp .f32 (posB x)
/-- %16 -/
def denom (x : FVec F S2048x4096 .f32) : FVec F S4096 .f32 := subf (upper x) (lower x)
/-- %18 -/
def safe (x : FVec F S2048x4096 .f32) : IVec S4096 1 := cmpf .une (denom x) (bc 0x00000000#32)
/-- a select with a scalar alternative: the outlined function's three operations -/
def whereS (c : IVec S4096 1) (a : FVec F S4096 .f32) (s : FVec F S_ .f32) : FVec F S4096 .f32 :=
  select c a (broadcastInDim S4096 ![] bcast_S_S4096 (id s))
/-- %19 -/
def denomSafe (x : FVec F S2048x4096 .f32) : FVec F S4096 .f32 := whereS (safe x) (denom x) (constant S_ .f32 0x3F800000#32)
/-- %20 -/
def quot0 (x : FVec F S2048x4096 .f32) : FVec F S4096 .f32 := Host.divf (upper x) (denomSafe x)
/-- %21 -/
def quot (x : FVec F S2048x4096 .f32) : FVec F S4096 .f32 := whereS (safe x) (quot0 x) (constant S_ .f32 0x3F000000#32)
/-- %23 -/
def lam (x : FVec F S2048x4096 .f32) : FVec F S4096 .f32 := addf (posf x) (mulf (crossf x) (quot x))
/-- %29 -/
def delta (x : FVec F S2048x4096 .f32) : FVec F S4096 .f32 :=
  maximumf (mulf (Host.negf (lam x)) (lower x)) (mulf (subf (bc 0x3F800000#32) (lam x)) (upper x))
/-- %40 -/
def center (x : FVec F S2048x4096 .f32) : FVec F S4096 .f32 :=
  addf (mulf (addf (mulf (delta x) (bc 0x3F000000#32)) (mulf (lam x) (row0 x))) (crossf x)) (mulf (row0 x) (posf x))
/-- %43 -/
def scale (x : FVec F S2048x4096 .f32) : FVec F S4096 .f32 := addf (mulf (lam x) (crossf x)) (posf x)
/-- %46 -/
def gens (x : FVec F S2048x4096 .f32) : FVec F S2047x4096 .f32 :=
  mulf (gensIn x) (broadcastInDim S2047x4096 ![0, 1] bcast_S1x4096_S2047x4096_0_1
    (broadcastInDim S1x4096 ![1] bcast_S4096_S1x4096_1 (scale x)))
/-- %47 -/
def ci (x : FVec F S2048x4096 .f32) : IVec S4096 32 := extui 32 (crossB x) natLt_1_32
/-- the outlined cumsum: the inclusive running sum -/
def cum (v : IVec S4096 32) : IVec S4096 32 :=
  Host.reduceWindow IntOp.addi ![4096] ![1] ![4095] ![0] v (broadcastInDim S_ ![] bcast_S_S_ (constantI S_ 32 0#32))
    reduceWindows_S4096_S4096_w4096s1p4095_0 h_S_
/-- %51: 2048 + the exclusive running sum -/
def rows (x : FVec F S2048x4096 .f32) : IVec S4096 32 := subi (addi (bci 2048#32) (cum (ci x))) (ci x)
/-- %60 -/
def newval (x : FVec F S2048x4096 .f32) : FVec F S4096 .f32 := mulf (mulf (delta x) (bc 0x3F000000#32)) (crossf x)
/-- index normalisation: a negative index counts from the end `n` -/
def norm (n : BitVec 32) (v : IVec S4096 32) : IVec S4096 32 := select (cmpi .slt v (bci 0#32)) (addi v (bci n)) v
/-- %73: the (row, column) pairs -/
def idx2 (r c : IVec S4096 32) : IVec S4096x2 32 :=
  concatenate S4096x2 1 [⟨S4096x1, broadcastInDim S4096x1 ![0] bcast_S4096_S4096x1_0 r⟩,
    ⟨S4096x1, broadcastInDim S4096x1 ![0] bcast_S4096_S4096x1_0 c⟩] concatenates_S4096x1_S4096x1_S4096x2_d1
/-- %55: zeros with row 0 set to the new centre -/
def out1 (x : FVec F S2048x4096 .f32) : FVec F S6144x4096 .f32 :=
  Host.scatter scatter_S6144x4096_S1_S4096_0_0_0_0 (fun _ b => b)
    (broadcastInDim S6144x4096 ![] bcast_S_S6144x4096 (constant S_ .f32 0x00000000#32))
    (broadcastInDim S1 ![] bcast_S_S1 (constantI S_ 32 0#32)) (center x)
/-- %57: rows 1 .. 2047 set to the scaled generators -/
def out2 (x : FVec F S2048x4096 .f32) : FVec F S6144x4096 .f32 :=
  Host.scatter scatter_S6144x4096_S1_S2047x4096_01_n_0_0 (fun _ b => b) (out1 x)
    (broadcastInDim S1 ![] bcast_S_S1 (constantI S_ 32 1#32)) (gens x)
/-- %74: the new error terms added at (rows, columns) -/
def refOut (x : FVec F S2048x4096 .f32) : FVec F S6144x4096 .f32 :=
  Host.scatterAdd scatter_S6144x4096_S4096x2_S4096_n_01_01_1 (out2 x)
    (idx2 (norm 6144#32 (rows x)) (norm 4096#32 (iotaInDim S4096 32 0))) (newval x)

end Cert.ReferenceIdeal.RefTerm

end
-- ==== Proof.RefRun.lean ====
/-
  The reference program's run, read back: its @main is one straight line of host operations (the two calls of the
  outlined select-with-a-scalar and the call of the outlined running sum listed at their call sites), so every
  weakly fair execution terminates with the result buffer at the operations' composed function of the argument — the
  staged function `RefTerm.refOut` — and the argument unchanged.
-/
import proofs.«129838_j46454366273944_1_alg».proof.Proof.Gen.ReferenceIdeal
import proofs.«129838_j46454366273944_1_alg».proof.Proof.RefTerm
import Idealize.ShloMosaic.Lib.StableHlo.Run
import Mathlib.Data.List.Basic

noncomputable section

open scoped BigOperators

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's statements 1 … 60 as host operations in order, the three calls' operations listed at their call sites. -/
abbrev ops0 : List (HloOp τ sig (Elt F)) :=
  [ StableHlo.unary main_arg0 main_v0 ((extractStridedSlice S2047x4096 ![1, 0] · Facts₀.slices_S2048x4096_S2047x4096_1_0) : (⟨S2048x4096, .f32⟩ : BufTy).Contents (Elt F) → (⟨S2047x4096, .f32⟩ : BufTy).Contents (Elt F)),
    StableHlo.unary main_v0 main_v1 (Host.absf : (⟨S2047x4096, .f32⟩ : BufTy).Contents (Elt F) → (⟨S2047x4096, .f32⟩ : BufTy).Contents (Elt F)),
    StableHlo.nullary main_cst (constant S_ .f32 0x00000000#32),
    StableHlo.binary main_v1 main_cst main_v2 ((fun x v => Host.reduceAdd x v Facts₀.reducesTo_S2047x4096_S4096_d0 Facts₀.h_S_) : (⟨S2047x4096, .f32⟩ : BufTy).Contents (Elt F) → (⟨S_, .f32⟩ : BufTy).Contents (Elt F) → (⟨S4096, .f32⟩ : BufTy).Contents (Elt F)),
    StableHlo.unary main_arg0 main_v3 ((extractStridedSlice S1x4096 ![0, 0] · Facts₀.slices_S2048x4096_S1x4096_0_0) : (⟨S2048x4096, .f32⟩ : BufTy).Contents (Elt F) → (⟨S1x4096, .f32⟩ : BufTy).Contents (Elt F)),
    StableHlo.reshape main_v3 main_v4 rfl Facts₀.shapeCasts_S1x4096_S4096,
    StableHlo.binary main_v4 main_v2 main_v5 (addf : (⟨S4096, .f32⟩ : BufTy).Contents (Elt F) → (⟨S4096, .f32⟩ : BufTy).Contents (Elt F) → (⟨S4096, .f32⟩ : BufTy).Contents (Elt F)),
    StableHlo.unary main_arg0 main_v6 ((extractStridedSlice S1x4096 ![0, 0] · Facts₀.slices_S2048x4096_S1x4096_0_0) : (⟨S2048x4096, .f32⟩ : BufTy).Contents (Elt F) → (⟨S1x4096, .f32⟩ : BufTy).Contents (Elt F)),
    StableHlo.reshape main_v6 main_v7 rfl Facts₀.shapeCasts_S1x4096_S4096,
    StableHlo.binary main_v7 main_v2 main_v8 (subf : (⟨S4096, .f32⟩ : BufTy).Contents (Elt F) → (⟨S4096, .f32⟩ : BufTy).Contents (Elt F) → (⟨S4096, .f32⟩ : BufTy).Contents (Elt F)),
    StableHlo.binary main_v8 main_v5 main_v9 (mulf : (⟨S4096, .f32⟩ : BufTy).Contents (Elt F) → (⟨S4096, .f32⟩ : BufTy).Contents (Elt F) → (⟨S4096, .f32⟩ : BufTy).Contents (Elt F)),
    StableHlo.nullary main_cst_0 (constant S_ .f32 0x00000000#32),
    StableHlo.unary main_cst_0 main_v10 (broadcastInDim S4096 ![] Facts₀.bcast_S_S4096 : (⟨S_, .f32⟩ : BufTy).Contents (Elt F) → (⟨S4096, .f32⟩ : BufTy).Contents (Elt F)),
    StableHlo.binary main_v9 main_v10 main_v11 (cmpf .olt : (⟨S4096, .f32⟩ : BufTy).Contents (Elt F) → (⟨S4096, .f32⟩ : BufTy).Contents (Elt F) → (⟨S4096, .i1⟩ : BufTy).Contents (Elt F)),
    StableHlo.nullary main_cst_1 (constant S_ .f32 0x00000000#32),
    StableHlo.unary main_cst_1 main_v12 (broadcastInDim S4096 ![] Facts₀.bcast_S_S4096 : (⟨S_, .f32⟩ : BufTy).Contents (Elt F) → (⟨S4096, .f32⟩ : BufTy).Contents (Elt F)),
    StableHlo.binary main_v8 main_v12 main_v13 (cmpf .oge : (⟨S4096, .f32⟩ : BufTy).Contents (Elt F) → (⟨S4096, .f32⟩ : BufTy).Contents (Elt F) → (⟨S4096, .i1⟩ : BufTy).Contents (Elt F)),
    StableHlo.unary main_v11 main_v14 (uitofp .f32 : (⟨S4096, .i1⟩ : BufTy).Contents (Elt F) → (⟨S4096, .f32⟩ : BufTy).Contents (Elt F)),
    StableHlo.unary main_v13 main_v15 (uitofp .f32 : (⟨S4096, .i1⟩ : BufTy).Contents (Elt F) → (⟨S4096, .f32⟩ : BufTy).Contents (Elt F)),
    StableHlo.binary main_v5 main_v8 main_v16 (subf : (⟨S4096, .f32⟩ : BufTy).Contents (Elt F) → (⟨S4096, .f32⟩ : BufTy).Contents (Elt F) → (⟨S4096, .f32⟩ : BufTy).Contents (Elt F)),
    StableHlo.nullary main_cst_2 (constant S_ .f32 0x00000000#32),
    StableHlo.unary main_cst_2 main_v17 (broadcastInDim S4096 ![] Facts₀.bcast_S_S4096 : (⟨S_, .f32⟩ : BufTy).Contents (Elt F) → (⟨S4096, .f32⟩ : BufTy).Contents (Elt F)),
    StableHlo.binary main_v16 main_v17 main_v18 (cmpf .une : (⟨S4096, .f32⟩ : BufTy).Contents (Elt F) → (⟨S4096, .f32⟩ : BufTy).Contents (Elt F) → (⟨S4096, .i1⟩ : BufTy).Contents (Elt F)),
    StableHlo.nullary main_cst_3 (constant S_ .f32 0x3F800000#32),
    StableHlo.TRef.unary (.of main_cst_3 : StableHlo.TRef sig ⟨S_, .f32⟩) main_call0.v0 id,
    StableHlo.TRef.unary main_call0.v0 main_call0.v1 (broadcastInDim S4096 ![] Facts₀.bcast_S_S4096),
    StableHlo.TRef.ternary (.of main_v18 : StableHlo.TRef sig ⟨S4096, .i1⟩) (.of main_v16 : StableHlo.TRef sig ⟨S4096, .f32⟩) main_call0.v1 main_call0.v2 select,
    StableHlo.binary main_v5 main_v19 main_v20 (Host.divf : (⟨S4096, .f32⟩ : BufTy).Contents (Elt F) → (⟨S4096, .f32⟩ : BufTy).Contents (Elt F) → (⟨S4096, .f32⟩ : BufTy).Contents (Elt F)),
    StableHlo.nullary main_cst_4 (constant S_ .f32 0x3F000000#32),
    StableHlo.TRef.unary (.of main_cst_4 : StableHlo.TRef sig ⟨S_, .f32⟩) main_call1.v0 id,
    StableHlo.TRef.unary main_call1.v0 main_call1.v1 (broadcastInDim S4096 ![] Facts₀.bcast_S_S4096),
    StableHlo.TRef.ternary (.of main_v18 : StableHlo.TRef sig ⟨S4096, .i1⟩) (.of main_v20 : StableHlo.TRef sig ⟨S4096, .f32⟩) main_call1.v1 main_call1.v2 select,
    StableHlo.binary main_v14 main_v21 main_v22 (mulf : (⟨S4096, .f32⟩ : BufTy).Contents (Elt F) → (⟨S4096, .f32⟩ : BufTy).Contents (Elt F) → (⟨S4096, .f32⟩ : BufTy).Contents (Elt F)),
    StableHlo.binary main_v15 main_v22 main_v23 (addf : (⟨S4096, .f32⟩ : BufTy).Contents (Elt F) → (⟨S4096, .f32⟩ : BufTy).Contents (Elt F) → (⟨S4096, .f32⟩ : BufTy).Contents (Elt F)),
    StableHlo.unary main_v23 main_v24 (Host.negf : (⟨S4096, .f32⟩ : BufTy).Contents (Elt F) → (⟨S4096, .f32⟩ : BufTy).Contents (Elt F)),
    StableHlo.binary main_v24 main_v8 main_v25 (mulf : (⟨S4096, .f32⟩ : BufTy).Contents (Elt F) → (⟨S4096, .f32⟩ : BufTy).Contents (Elt F) → (⟨S4096, .f32⟩ : BufTy).Contents (Elt F)),
    StableHlo.nullary main_cst_5 (constant S_ .f32 0x3F800000#32),
    StableHlo.unary main_cst_5 main_v26 (broadcastInDim S4096 ![] Facts₀.bcast_S_S4096 : (⟨S_, .f32⟩ : BufTy).Contents (Elt F) → (⟨S4096, .f32⟩ : BufTy).Contents (Elt F)),
    StableHlo.binary main_v26 main_v23 main_v27 (subf : (⟨S4096, .f32⟩ : BufTy).Contents (Elt F) → (⟨S4096, .f32⟩ : BufTy).Contents (Elt F) → (⟨S4096, .f32⟩ : BufTy).Contents (Elt F)),
    StableHlo.binary main_v27 main_v5 main_v28 (mulf : (⟨S4096, .f32⟩ : BufTy).Contents (Elt F) → (⟨S4096, .f32⟩ : BufTy).Contents (Elt F) → (⟨S4096, .f32⟩ : BufTy).Contents (Elt F)),
    StableHlo.binary main_v25 main_v28 main_v29 (maximumf : (⟨S4096, .f32⟩ : BufTy).Contents (Elt F) → (⟨S4096, .f32⟩ : BufTy).Contents (Elt F) → (⟨S4096, .f32⟩ : BufTy).Contents (Elt F)),
    StableHlo.nullary main_cst_6 (constant S_ .f32 0x3F000000#32),
    StableHlo.unary main_cst_6 main_v30 (broadcastInDim S4096 ![] Facts₀.bcast_S_S4096 : (⟨S_, .f32⟩ : BufTy).Contents (Elt F) → (⟨S4096, .f32⟩ : BufTy).Contents (Elt F)),
    StableHlo.binary main_v29 main_v30 main_v31 (mulf : (⟨S4096, .f32⟩ : BufTy).Contents (Elt F) → (⟨S4096, .f32⟩ : BufTy).Contents (Elt F) → (⟨S4096, .f32⟩ : BufTy).Contents (Elt F)),
    StableHlo.unary main_arg0 main_v32 ((extractStridedSlice S1x4096 ![0, 0] · Facts₀.slices_S2048x4096_S1x4096_0_0) : (⟨S2048x4096, .f32⟩ : BufTy).Contents (Elt F) → (⟨S1x4096, .f32⟩ : BufTy).Contents (Elt F)),
    StableHlo.reshape main_v32 main_v33 rfl Facts₀.shapeCasts_S1x4096_S4096,
    StableHlo.binary main_v23 main_v33 main_v34 (mulf : (⟨S4096, .f32⟩ : BufTy).Contents (Elt F) → (⟨S4096, .f32⟩ : BufTy).Contents (Elt F) → (⟨S4096, .f32⟩ : BufTy).Contents (Elt F)),
    StableHlo.binary main_v31 main_v34 main_v35 (addf : (⟨S4096, .f32⟩ : BufTy).Contents (Elt F) → (⟨S4096, .f32⟩ : BufTy).Contents (Elt F) → (⟨S4096, .f32⟩ : BufTy).Contents (Elt F)),
    StableHlo.binary main_v35 main_v14 main_v36 (mulf : (⟨S4096, .f32⟩ : BufTy).Contents (Elt F) → (⟨S4096, .f32⟩ : BufTy).Contents (Elt F) → (⟨S4096, .f32⟩ : BufTy).Contents (Elt F)),
    StableHlo.unary main_arg0 main_v37 ((extractStridedSlice S1x4096 ![0, 0] · Facts₀.slices_S2048x4096_S1x4096_0_0) : (⟨S2048x4096, .f32⟩ : BufTy).Contents (Elt F) → (⟨S1x4096, .f32⟩ : BufTy).Contents (Elt F)),
    StableHlo.reshape main_v37 main_v38 rfl Facts₀.shapeCasts_S1x4096_S4096,
    StableHlo.binary main_v38 main_v15 main_v39 (mulf : (⟨S4096, .f32⟩ : BufTy).Contents (Elt F) → (⟨S4096, .f32⟩ : BufTy).Contents (Elt F) → (⟨S4096, .f32⟩ : BufTy).Contents (Elt F)),
    StableHlo.binary main_v36 main_v39 main_v40 (addf : (⟨S4096, .f32⟩ : BufTy).Contents (Elt F) → (⟨S4096, .f32⟩ : BufTy).Contents (Elt F) → (⟨S4096, .f32⟩ : BufTy).Contents (Elt F)),
    StableHlo.unary main_arg0 main_v41 ((extractStridedSlice S2047x4096 ![1, 0] · Facts₀.slices_S2048x4096_S2047x4096_1_0) : (⟨S2048x4096, .f32⟩ : BufTy).Contents (Elt F) → (⟨S2047x4096, .f32⟩ : BufTy).Contents (Elt F)),
    StableHlo.binary main_v23 main_v14 main_v42 (mulf : (⟨S4096, .f32⟩ : BufTy).Contents (Elt F) → (⟨S4096, .f32⟩ : BufTy).Contents (Elt F) → (⟨S4096, .f32⟩ : BufTy).Contents (Elt F)),
    StableHlo.binary main_v42 main_v15 main_v43 (addf : (⟨S4096, .f32⟩ : BufTy).Contents (Elt F) → (⟨S4096, .f32⟩ : BufTy).Contents (Elt F) → (⟨S4096, .f32⟩ : BufTy).Contents (Elt F)),
    StableHlo.unary main_v43 main_v44 (broadcastInDim S1x4096 ![1] Facts₀.bcast_S4096_S1x4096_1 : (⟨S4096, .f32⟩ : BufTy).Contents (Elt F) → (⟨S1x4096, .f32⟩ : BufTy).Contents (Elt F)),
    StableHlo.unary main_v44 main_v45 (broadcastInDim S2047x4096 ![0, 1] Facts₀.bcast_S1x4096_S2047x4096_0_1 : (⟨S1x4096, .f32⟩ : BufTy).Contents (Elt F) → (⟨S2047x4096, .f32⟩ : BufTy).Contents (Elt F)),
    StableHlo.binary main_v41 main_v45 main_v46 (mulf : (⟨S2047x4096, .f32⟩ : BufTy).Contents (Elt F) → (⟨S2047x4096, .f32⟩ : BufTy).Contents (Elt F) → (⟨S2047x4096, .f32⟩ : BufTy).Contents (Elt F)),
    StableHlo.unary main_v11 main_v47 ((extui 32 · Facts₀.natLt_1_32) : (⟨S4096, .i1⟩ : BufTy).Contents (Elt F) → (⟨S4096, .i32⟩ : BufTy).Contents (Elt F)),
    StableHlo.TRef.nullary main_call2.call0.c (constantI S_ 32 0#32),
    StableHlo.TRef.unary main_call2.call0.c main_call2.call0.v0 (broadcastInDim S_ ![] Facts₀.bcast_S_S_),
    StableHlo.TRef.binary (.of main_v47 : StableHlo.TRef sig ⟨S4096, .i32⟩) main_call2.call0.v0 main_call2.call0.v1 (fun x v => Host.reduceWindow IntOp.addi ![4096] ![1] ![4095] ![0] x v Facts₀.reduceWindows_S4096_S4096_w4096s1p4095_0 Facts₀.h_S_),
    StableHlo.nullary main_c (constantI S_ 32 2048#32),
    StableHlo.unary main_c main_v49 (broadcastInDim S4096 ![] Facts₀.bcast_S_S4096 : (⟨S_, .i32⟩ : BufTy).Contents (Elt F) → (⟨S4096, .i32⟩ : BufTy).Contents (Elt F)),
    StableHlo.binary main_v49 main_v48 main_v50 (addi : (⟨S4096, .i32⟩ : BufTy).Contents (Elt F) → (⟨S4096, .i32⟩ : BufTy).Contents (Elt F) → (⟨S4096, .i32⟩ : BufTy).Contents (Elt F)) ]

/-- @main's statements 61 … 92 as host operations in order. -/
abbrev ops1 : List (HloOp τ sig (Elt F)) :=
  [ StableHlo.binary main_v50 main_v47 main_v51 (subi : (⟨S4096, .i32⟩ : BufTy).Contents (Elt F) → (⟨S4096, .i32⟩ : BufTy).Contents (Elt F) → (⟨S4096, .i32⟩ : BufTy).Contents (Elt F)),
    StableHlo.nullary main_v52 (iotaInDim S4096 32 0),
    StableHlo.nullary main_cst_7 (constant S_ .f32 0x00000000#32),
    StableHlo.unary main_cst_7 main_v53 (broadcastInDim S6144x4096 ![] Facts₀.bcast_S_S6144x4096 : (⟨S_, .f32⟩ : BufTy).Contents (Elt F) → (⟨S6144x4096, .f32⟩ : BufTy).Contents (Elt F)),
    StableHlo.nullary main_c_8 (constantI S_ 32 0#32),
    StableHlo.unary main_c_8 main_v54 (broadcastInDim S1 ![] Facts₀.bcast_S_S1 : (⟨S_, .i32⟩ : BufTy).Contents (Elt F) → (⟨S1, .i32⟩ : BufTy).Contents (Elt F)),
    StableHlo.ternary main_v53 main_v54 main_v40 main_v55 ((fun x i u => Host.scatter scatter_S6144x4096_S1_S4096_0_0_0_0 (fun _ b => b) x i u) : (⟨S6144x4096, .f32⟩ : BufTy).Contents (Elt F) → (⟨S1, .i32⟩ : BufTy).Contents (Elt F) → (⟨S4096, .f32⟩ : BufTy).Contents (Elt F) → (⟨S6144x4096, .f32⟩ : BufTy).Contents (Elt F)),
    StableHlo.nullary main_c_9 (constantI S_ 32 1#32),
    StableHlo.unary main_c_9 main_v56 (broadcastInDim S1 ![] Facts₀.bcast_S_S1 : (⟨S_, .i32⟩ : BufTy).Contents (Elt F) → (⟨S1, .i32⟩ : BufTy).Contents (Elt F)),
    StableHlo.ternary main_v55 main_v56 main_v46 main_v57 ((fun x i u => Host.scatter scatter_S6144x4096_S1_S2047x4096_01_n_0_0 (fun _ b => b) x i u) : (⟨S6144x4096, .f32⟩ : BufTy).Contents (Elt F) → (⟨S1, .i32⟩ : BufTy).Contents (Elt F) → (⟨S2047x4096, .f32⟩ : BufTy).Contents (Elt F) → (⟨S6144x4096, .f32⟩ : BufTy).Contents (Elt F)),
    StableHlo.nullary main_cst_10 (constant S_ .f32 0x3F000000#32),
    StableHlo.unary main_cst_10 main_v58 (broadcastInDim S4096 ![] Facts₀.bcast_S_S4096 : (⟨S_, .f32⟩ : BufTy).Contents (Elt F) → (⟨S4096, .f32⟩ : BufTy).Contents (Elt F)),
    StableHlo.binary main_v29 main_v58 main_v59 (mulf : (⟨S4096, .f32⟩ : BufTy).Contents (Elt F) → (⟨S4096, .f32⟩ : BufTy).Contents (Elt F) → (⟨S4096, .f32⟩ : BufTy).Contents (Elt F)),
    StableHlo.binary main_v59 main_v14 main_v60 (mulf : (⟨S4096, .f32⟩ : BufTy).Contents (Elt F) → (⟨S4096, .f32⟩ : BufTy).Contents (Elt F) → (⟨S4096, .f32⟩ : BufTy).Contents (Elt F)),
    StableHlo.nullary main_c_11 (constantI S_ 32 0#32),
    StableHlo.unary main_c_11 main_v61 (broadcastInDim S4096 ![] Facts₀.bcast_S_S4096 : (⟨S_, .i32⟩ : BufTy).Contents (Elt F) → (⟨S4096, .i32⟩ : BufTy).Contents (Elt F)),
    StableHlo.binary main_v51 main_v61 main_v62 (cmpi .slt : (⟨S4096, .i32⟩ : BufTy).Contents (Elt F) → (⟨S4096, .i32⟩ : BufTy).Contents (Elt F) → (⟨S4096, .i1⟩ : BufTy).Contents (Elt F)),
    StableHlo.nullary main_c_12 (constantI S_ 32 6144#32),
    StableHlo.unary main_c_12 main_v63 (broadcastInDim S4096 ![] Facts₀.bcast_S_S4096 : (⟨S_, .i32⟩ : BufTy).Contents (Elt F) → (⟨S4096, .i32⟩ : BufTy).Contents (Elt F)),
    StableHlo.binary main_v51 main_v63 main_v64 (addi : (⟨S4096, .i32⟩ : BufTy).Contents (Elt F) → (⟨S4096, .i32⟩ : BufTy).Contents (Elt F) → (⟨S4096, .i32⟩ : BufTy).Contents (Elt F)),
    StableHlo.ternary main_v62 main_v64 main_v51 main_v65 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_13 (constantI S_ 32 0#32),
    StableHlo.unary main_c_13 main_v66 (broadcastInDim S4096 ![] Facts₀.bcast_S_S4096 : (⟨S_, .i32⟩ : BufTy).Contents (Elt F) → (⟨S4096, .i32⟩ : BufTy).Contents (Elt F)),
    StableHlo.binary main_v52 main_v66 main_v67 (cmpi .slt : (⟨S4096, .i32⟩ : BufTy).Contents (Elt F) → (⟨S4096, .i32⟩ : BufTy).Contents (Elt F) → (⟨S4096, .i1⟩ : BufTy).Contents (Elt F)),
    StableHlo.nullary main_c_14 (constantI S_ 32 4096#32),
    StableHlo.unary main_c_14 main_v68 (broadcastInDim S4096 ![] Facts₀.bcast_S_S4096 : (⟨S_, .i32⟩ : BufTy).Contents (Elt F) → (⟨S4096, .i32⟩ : BufTy).Contents (Elt F)),
    StableHlo.binary main_v52 main_v68 main_v69 (addi : (⟨S4096, .i32⟩ : BufTy).Contents (Elt F) → (⟨S4096, .i32⟩ : BufTy).Contents (Elt F) → (⟨S4096, .i32⟩ : BufTy).Contents (Elt F)),
    StableHlo.ternary main_v67 main_v69 main_v52 main_v70 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v65 main_v71 (broadcastInDim S4096x1 ![0] Facts₀.bcast_S4096_S4096x1_0 : (⟨S4096, .i32⟩ : BufTy).Contents (Elt F) → (⟨S4096x1, .i32⟩ : BufTy).Contents (Elt F)),
    StableHlo.unary main_v70 main_v72 (broadcastInDim S4096x1 ![0] Facts₀.bcast_S4096_S4096x1_0 : (⟨S4096, .i32⟩ : BufTy).Contents (Elt F) → (⟨S4096x1, .i32⟩ : BufTy).Contents (Elt F)),
    StableHlo.binary main_v71 main_v72 main_v73 ((fun a b => concatenate S4096x2 1 [⟨S4096x1, a⟩, ⟨S4096x1, b⟩] Facts₀.concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.ternary main_v57 main_v73 main_v60 main_v74 ((fun x i u => Host.scatterAdd scatter_S6144x4096_S4096x2_S4096_n_01_01_1 x i u) : (⟨S6144x4096, .f32⟩ : BufTy).Contents (Elt F) → (⟨S4096x2, .i32⟩ : BufTy).Contents (Elt F) → (⟨S4096, .f32⟩ : BufTy).Contents (Elt F) → (⟨S6144x4096, .f32⟩ : BufTy).Contents (Elt F)) ]

set_option maxRecDepth 8192 in
set_option maxHeartbeats 4000000 in
theorem main_part0_eq (c : Dev nD) : main_part0 (F := F) c = seq ops0 := rfl

theorem main_part1_eq (c : Dev nD) : main_part1 (F := F) c = seq ops1 := rfl

theorem main_eq (c : Dev nD) : main (F := F) c = seq (ops0 ++ ops1) := by
  rw [seq_append, ← main_part0_eq c, ← main_part1_eq c]; rfl

/-- The fold over two lists in a row is the fold over the second from the fold over the first. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

-- the reductions and scatters are folds over their operands' elements: no equation below looks inside them
attribute [local irreducible] Host.reduceWindow Host.reduceAdd Host.scatter Host.scatterAdd

set_option maxRecDepth 8192 in
set_option maxHeartbeats 4000000 in
/-- %14 after the first window: the crossing flag as a float. -/
theorem v14_eq (V : Valuation τ sig (Elt F)) :
    after ops0 V (main_v14 : DevRef τ sig) = RefTerm.crossf (V (main_arg0 : DevRef τ sig)) := by
  after_results_simp
  try simp only [TRef.ofBuf, TRef.toBuf, cast_eq]
  rfl

set_option maxRecDepth 8192 in
set_option maxHeartbeats 4000000 in
/-- %29 after the first window: delta. -/
theorem v29_eq (V : Valuation τ sig (Elt F)) :
    after ops0 V (main_v29 : DevRef τ sig) = RefTerm.delta (V (main_arg0 : DevRef τ sig)) := by
  after_results_simp
  try simp only [TRef.ofBuf, TRef.toBuf, cast_eq]
  rfl

set_option maxRecDepth 8192 in
set_option maxHeartbeats 4000000 in
/-- %40 after the first window: the new centre. -/
theorem v40_eq (V : Valuation τ sig (Elt F)) :
    after ops0 V (main_v40 : DevRef τ sig) = RefTerm.center (V (main_arg0 : DevRef τ sig)) := by
  after_results_simp
  try simp only [TRef.ofBuf, TRef.toBuf, cast_eq]
  rfl

set_option maxRecDepth 8192 in
set_option maxHeartbeats 4000000 in
/-- %46 after the first window: the scaled generators. -/
theorem v46_eq (V : Valuation τ sig (Elt F)) :
    after ops0 V (main_v46 : DevRef τ sig) = RefTerm.gens (V (main_arg0 : DevRef τ sig)) := by
  after_results_simp
  try simp only [TRef.ofBuf, TRef.toBuf, cast_eq]
  rfl

set_option maxRecDepth 8192 in
set_option maxHeartbeats 4000000 in
/-- %47 after the first window: the crossing flag as a word. -/
theorem v47_eq (V : Valuation τ sig (Elt F)) :
    after ops0 V (main_v47 : DevRef τ sig) = RefTerm.ci (V (main_arg0 : DevRef τ sig)) := by
  after_results_simp
  try simp only [TRef.ofBuf, TRef.toBuf, cast_eq]
  rfl

set_option maxRecDepth 8192 in
set_option maxHeartbeats 4000000 in
/-- %50 after the first window: 2048 + the inclusive running count. -/
theorem v50_eq (V : Valuation τ sig (Elt F)) :
    after ops0 V (main_v50 : DevRef τ sig) = addi (RefTerm.bci 2048#32) (RefTerm.cum (RefTerm.ci (V (main_arg0 : DevRef τ sig)))) := by
  after_results_simp
  try simp only [TRef.ofBuf, TRef.toBuf, cast_eq]
  rfl

set_option maxRecDepth 8192 in
set_option maxHeartbeats 4000000 in
/-- The second window from any contents: the result as a function of the six values it reads from the first. -/
theorem tail_eq (W : Valuation τ sig (Elt F)) :
    after ops1 W (main_v74 : DevRef τ sig)
      = Host.scatterAdd scatter_S6144x4096_S4096x2_S4096_n_01_01_1
          (Host.scatter scatter_S6144x4096_S1_S2047x4096_01_n_0_0 (fun _ b => b)
            (Host.scatter scatter_S6144x4096_S1_S4096_0_0_0_0 (fun _ b => b)
              (broadcastInDim S6144x4096 ![] Facts₀.bcast_S_S6144x4096 (constant S_ .f32 0x00000000#32))
              (broadcastInDim S1 ![] Facts₀.bcast_S_S1 (constantI S_ 32 0#32)) (W (main_v40 : DevRef τ sig)))
            (broadcastInDim S1 ![] Facts₀.bcast_S_S1 (constantI S_ 32 1#32)) (W (main_v46 : DevRef τ sig)))
          (RefTerm.idx2 (RefTerm.norm 6144#32 (subi (W (main_v50 : DevRef τ sig)) (W (main_v47 : DevRef τ sig))))
            (RefTerm.norm 4096#32 (iotaInDim S4096 32 0)))
          (mulf (mulf (W (main_v29 : DevRef τ sig)) (RefTerm.bc 0x3F000000#32)) (W (main_v14 : DevRef τ sig))) := by
  after_results_simp
  rfl

set_option maxRecDepth 8192 in
set_option maxHeartbeats 4000000 in
/-- The result buffer after both windows is the staged function of the argument. -/
theorem out_eq (V : Valuation τ sig (Elt F)) :
    after (ops0 ++ ops1) V (main_v74 : DevRef τ sig) = RefTerm.refOut (V (main_arg0 : DevRef τ sig)) := by
  rw [after_app, tail_eq, v14_eq, v29_eq, v40_eq, v46_eq, v47_eq, v50_eq]
  rfl

set_option maxRecDepth 8192 in
set_option maxHeartbeats 4000000 in
/-- No operation writes the argument. -/
theorem arg_eq (V : Valuation τ sig (Elt F)) :
    after (ops0 ++ ops1) V (main_arg0 : DevRef τ sig) = V (main_arg0 : DevRef τ sig) := by
  rw [after_app]
  after_results_simp

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., unary_bufs_sub .., nullary_bufs_sub .., binary_bufs_sub .., unary_bufs_sub .., reshape_bufs_sub ..,
    binary_bufs_sub .., unary_bufs_sub .., reshape_bufs_sub .., binary_bufs_sub .., binary_bufs_sub .., nullary_bufs_sub ..,
    unary_bufs_sub .., binary_bufs_sub .., nullary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., unary_bufs_sub .., ternary_bufs_sub .., binary_bufs_sub .., nullary_bufs_sub .., unary_bufs_sub ..,
    unary_bufs_sub .., ternary_bufs_sub .., binary_bufs_sub .., binary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., reshape_bufs_sub .., binary_bufs_sub .., binary_bufs_sub ..,
    binary_bufs_sub .., unary_bufs_sub .., reshape_bufs_sub .., binary_bufs_sub .., binary_bufs_sub .., unary_bufs_sub ..,
    binary_bufs_sub .., binary_bufs_sub .., unary_bufs_sub .., unary_bufs_sub .., binary_bufs_sub .., unary_bufs_sub ..,
    nullary_bufs_sub .., unary_bufs_sub .., binary_bufs_sub .., nullary_bufs_sub .., unary_bufs_sub .., binary_bufs_sub ..⟩

theorem ops1_sub : (ops1 : List (HloOp τ sig (Elt F))).Forall fun op => op.bufs ⊆ tcRefs τ sig :=
  ⟨binary_bufs_sub .., nullary_bufs_sub .., nullary_bufs_sub .., unary_bufs_sub .., nullary_bufs_sub .., unary_bufs_sub ..,
    ternary_bufs_sub .., nullary_bufs_sub .., unary_bufs_sub .., ternary_bufs_sub .., nullary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., ternary_bufs_sub ..⟩

theorem ops_sub : (ops0 ++ ops1 : List (HloOp τ sig (Elt F))).Forall fun op => op.bufs ⊆ tcRefs τ sig :=
  List.forall_append.mpr ⟨ops0_sub, ops1_sub⟩

/-- Every operation determines its results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

theorem ops_fresh : ∀ op ∈ (ops0 ++ ops1 : List (HloOp τ sig (Elt F))), op.fresh = ∅ :=
  List.forall_iff_forall_mem.mp (List.forall_append.mpr ⟨ops0_fresh, ops1_fresh⟩)

/-- On every device, from any memory with zero counters: every weakly fair execution of @main terminates with the
    result at the staged function of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = RefTerm.refOut (m ((c.tc : Thread nD τ).loc main_arg0))
      ∧ r.2.mem ((c.tc : Thread nD τ).loc main_arg0) = m ((c.tc : Thread nD τ).loc main_arg0) :=
  (θ_run defs _ _).mono (fun _ h c => ⟨(h c main_v74).trans (out_eq (launchContents m c)),
      (h c main_arg0).trans (arg_eq (launchContents m c))⟩)
    (run_seq scopedRefs_eq scopedSems_eq defs main (fun _ => ops0 ++ ops1) main_eq (fun _ => ops_sub) m ρ
      (fun _ => ops_fresh))

end Cert.ReferenceIdeal.RefRun

end
-- ==== Proof.LibScatterSet.lean ====
/-
  A host scatter whose body returns the update (an indexed assignment), when every update index lands inside the
  operand and distinct update indices land on distinct elements: the result holds the update at each landing element
  and the operand everywhere else, whatever the order of the fold. General in the shapes and dimension numbers.
-/
import Idealize.ShloMosaic.PureOps

noncomputable section

open scoped BigOperators

namespace Cert.LibScatterSet

open Idealize.ShloMosaic

variable {α : Type} {s si u : Shape} {w : Nat}

/-- A left fold of point overwrites (element `p m` set to `v m`, for `m` along the list): when `p` is injective
    the element `p n` of an `n` in the list ends as `v n`, since no other member of the list writes there. -/
private theorem foldl_set_hit {ι κ : Type} [DecidableEq κ] (p : ι → κ) (v : ι → α) (hp : Function.Injective p)
    (l : List ι) (x : κ → α) (n : ι) (hn : n ∈ l) :
    (l.foldl (fun r m => fun i' => if i' = p m then v m else r i') x) (p n) = v n := by
  induction l using List.reverseRecOn with
  | nil => simp at hn
  | append_singleton t a ih =>
    rw [List.foldl_append, List.foldl_cons, List.foldl_nil]
    by_cases h : p n = p a
    · have hna : n = a := hp h
      subst hna
      simp
    · rw [if_neg h]
      have hnt : n ∈ t := by
        rcases List.mem_append.1 hn with h' | h'
        · exact h'
        · have hna : n = a := by simpa using h'
          exact absurd (by rw [hna]) h
      exact ih hnt

/-- The same fold leaves an element no member of the list writes to as it was. -/
private theorem foldl_set_miss {ι κ : Type} [DecidableEq κ] (p : ι → κ) (v : ι → α)
    (l : List ι) (x : κ → α) (i : κ) (hi : ∀ m ∈ l, p m ≠ i) :
    (l.foldl (fun r m => fun i' => if i' = p m then v m else r i') x) i = x i := by
  induction l using List.reverseRecOn with
  | nil => simp
  | append_singleton t a ih =>
    rw [List.foldl_append, List.foldl_cons, List.foldl_nil]
    have h : ¬ i = p a := fun e => hi a (by simp) e.symm
    rw [if_neg h]
    exact ih fun m hm => hi m (List.mem_append_left _ hm)

/-- When every update index lands (at `g`), the scatter is the fold of point overwrites at `g` of the row-major
    enumeration of the update indices. -/
private theorem scatter_set_eq (d : ScatterDims s si u) (x : s.Idx → α) (idx : IVec si w) (upd : u.Idx → α)
    (g : u.Idx → s.Idx) (hg : ∀ j, d.resultIdx? j idx = some (g j)) :
    Host.scatter d (fun _ b => b) x idx upd
      = (List.finRange u.numel).foldl (fun r m => fun i' =>
          if i' = g (u.rowMajor.symm m) then upd (u.rowMajor.symm m) else r i') x := by
  unfold Host.scatter
  congr 1
  funext r n
  rw [hg]

/-- At the element update `j` lands on, the scatter holds update `j`. -/
theorem scatter_set_hit (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j := by
  rw [scatter_set_eq d x idx upd g hg]
  have h := foldl_set_hit (fun m => g (u.rowMajor.symm m)) (fun m => upd (u.rowMajor.symm m))
    (fun a b hab => u.rowMajor.symm.injective (hinj hab)) (List.finRange u.numel) x (u.rowMajor j)
    (List.mem_finRange _)
  simpa using h

/-- At an element no update lands on, the scatter holds the operand. -/
theorem scatter_set_miss (d : ScatterDims s si u) (x : s.Idx → α) (idx : IVec si w) (upd : u.Idx → α)
    (g : u.Idx → s.Idx) (hg : ∀ j, d.resultIdx? j idx = some (g j)) (i : s.Idx) (hi : ∀ j, g j ≠ i) :
    Host.scatter d (fun _ b => b) x idx upd i = x i := by
  rw [scatter_set_eq d x idx upd g hg]
  exact foldl_set_miss (fun m => g (u.rowMajor.symm m)) (fun m => upd (u.rowMajor.symm m))
    (List.finRange u.numel) x i (fun m _ => hi _)

end Cert.LibScatterSet

end
-- ==== Proof.ScatterRows.lean ====
/-
  The reference's two `.at[...].set` scatters into the 6144 x 4096 result, read at an element: a 4096-vector written
  as row 0 (one scatter index, 0; the update's axis is the operand's column axis), then a 2047 x 4096 block written
  at rows 1 .. 2047 (one scatter index, 1; a window over both axes). Elsewhere the operand is kept.
-/
import proofs.«129838_j46454366273944_1_alg».proof.Proof.LibScatterSet
import Idealize.ShloMosaic.Lib.ValueIdx

noncomputable section

open scoped BigOperators

namespace Cert.ScatterRows

open Idealize.ShloMosaic Idealize.ShloMosaic.ValueIdx

abbrev S6144x4096 : Shape := ⟨2, ![6144, 4096]⟩
abbrev S2047x4096 : Shape := ⟨2, ![2047, 4096]⟩
abbrev S4096 : Shape := ⟨1, ![4096]⟩
abbrev S1 : Shape := ⟨1, ![1]⟩

variable {α : Type}

/-- The first scatter's dimension numbers: one scatter index, the update's axis a window over the operand's columns. -/
private abbrev d1 (hwf1 : ScatterDims.WF S6144x4096 S1 S4096 [0] [0] [0] 0) : ScatterDims S6144x4096 S1 S4096 :=
  ⟨[0], [0], [0], 0, hwf1⟩

/-- The second scatter's dimension numbers: one scatter index, a window over both axes. -/
private abbrev d2 (hwf2 : ScatterDims.WF S6144x4096 S1 S2047x4096 [0, 1] [] [0] 0) : ScatterDims S6144x4096 S1 S2047x4096 :=
  ⟨[0, 1], [], [0], 0, hwf2⟩

/-- Where the first scatter's update index lands: row 0, the update's column. -/
private abbrev g1 (j : S4096.Idx) : S6144x4096.Idx := ix2 (0 : Fin 6144) (j 0)

/-- Where the second scatter's update index lands: one row further down, the same column. -/
private abbrev g2 (j : S2047x4096.Idx) : S6144x4096.Idx :=
  ix2 (⟨(j 0).val + 1, by have := idx2_lt0 j; omega⟩ : Fin 6144) (j 1)

private theorem g1_injective : Function.Injective g1 := by
  intro j j' h
  have h1 : j 0 = j' 0 := congrFun h 1
  rw [eq_ix1 j, eq_ix1 j', h1]

private theorem g2_injective : Function.Injective g2 := by
  intro j j' h
  have h0 : (j 0).val + 1 = (j' 0).val + 1 := congrArg (fun f : S6144x4096.Idx => (f 0).val) h
  have h1 : j 1 = j' 1 := congrFun h 1
  have h0' : j 0 = j' 0 := Fin.ext (by omega)
  rw [eq_ix2 j, eq_ix2 j', h0', h1]

section first
variable (hwf1 : ScatterDims.WF S6144x4096 S1 S4096 [0] [0] [0] 0)

private theorem d1_window0 (j : S4096.Idx) : (d1 hwf1).window j 0 = 0 := rfl
private theorem d1_window1 (j : S4096.Idx) : (d1 hwf1).window j 1 = (j 0).val := rfl
private theorem d1_start1 (j : S4096.Idx) (idx0 : IVec S1 32) : (d1 hwf1).start j idx0 1 = 0 := rfl
private theorem d1_start0 (j : S4096.Idx) (idx0 : IVec S1 32) (h0 : ∀ k, idx0 k = 0#32) :
    (d1 hwf1).start j idx0 0 = 0 := by
  unfold ScatterDims.start
  simp [h0]

/-- The first scatter's update index `j` lands at row 0, column `j 0`. -/
private theorem d1_result (j : S4096.Idx) (idx0 : IVec S1 32) (h0 : ∀ k, idx0 k = 0#32) :
    (d1 hwf1).resultIdx? j idx0 = some (g1 j) := by
  have hs0 := d1_start0 hwf1 j idx0 h0
  have hs1 := d1_start1 hwf1 j idx0
  have hw0 := d1_window0 hwf1 j
  have hw1 := d1_window1 hwf1 j
  have hj : (j 0).val < 4096 := (j 0).isLt
  have hall : ∀ a, 0 ≤ (d1 hwf1).start j idx0 a + (d1 hwf1).window j a ∧
      (d1 hwf1).start j idx0 a + (d1 hwf1).window j a < S6144x4096.size a := by
    refine Fin.forall_fin_two.2 ⟨?_, ?_⟩
    · rw [hs0, hw0]; exact ⟨by decide, by decide⟩
    · rw [hs1, hw1]
      refine ⟨by omega, ?_⟩
      show (0 : Int) + ((j 0).val : Int) < ((4096 : Nat) : Int)
      omega
  unfold ScatterDims.resultIdx?
  rw [dif_pos hall]
  congr 1
  funext a
  revert a
  refine Fin.forall_fin_two.2 ⟨?_, ?_⟩
  · apply Fin.ext
    show ((d1 hwf1).start j idx0 0 + ((d1 hwf1).window j 0 : Nat)).toNat = 0
    rw [hs0, hw0]; rfl
  · apply Fin.ext
    show ((d1 hwf1).start j idx0 1 + ((d1 hwf1).window j 1 : Nat)).toNat = (j 0).val
    rw [hs1, hw1]; omega
end first

section second
variable (hwf2 : ScatterDims.WF S6144x4096 S1 S2047x4096 [0, 1] [] [0] 0)

private theorem d2_window0 (j : S2047x4096.Idx) : (d2 hwf2).window j 0 = (j 0).val := rfl
private theorem d2_window1 (j : S2047x4096.Idx) : (d2 hwf2).window j 1 = (j 1).val := rfl
private theorem d2_start1 (j : S2047x4096.Idx) (idx1 : IVec S1 32) : (d2 hwf2).start j idx1 1 = 0 := rfl
private theorem d2_start0 (j : S2047x4096.Idx) (idx1 : IVec S1 32) (h1 : ∀ k, idx1 k = 1#32) :
    (d2 hwf2).start j idx1 0 = 1 := by
  unfold ScatterDims.start
  simp [h1]

/-- The second scatter's update index `j` lands at row `j 0 + 1`, column `j 1`. -/
private theorem d2_result (j : S2047x4096.Idx) (idx1 : IVec S1 32) (h1 : ∀ k, idx1 k = 1#32) :
    (d2 hwf2).resultIdx? j idx1 = some (g2 j) := by
  have hs0 := d2_start0 hwf2 j idx1 h1
  have hs1 := d2_start1 hwf2 j idx1
  have hw0 := d2_window0 hwf2 j
  have hw1 := d2_window1 hwf2 j
  have hj0 : (j 0).val < 2047 := idx2_lt0 j
  have hj1 : (j 1).val < 4096 := idx2_lt1 j
  have hall : ∀ a, 0 ≤ (d2 hwf2).start j idx1 a + (d2 hwf2).window j a ∧
      (d2 hwf2).start j idx1 a + (d2 hwf2).window j a < S6144x4096.size a := by
    refine Fin.forall_fin_two.2 ⟨?_, ?_⟩
    · rw [hs0, hw0]
      refine ⟨by omega, ?_⟩
      show (1 : Int) + ((j 0).val : Int) < ((6144 : Nat) : Int)
      omega
    · rw [hs1, hw1]
      refine ⟨by omega, ?_⟩
      show (0 : Int) + ((j 1).val : Int) < ((4096 : Nat) : Int)
      omega
  unfold ScatterDims.resultIdx?
  rw [dif_pos hall]
  congr 1
  funext a
  revert a
  refine Fin.forall_fin_two.2 ⟨?_, ?_⟩
  · apply Fin.ext
    show ((d2 hwf2).start j idx1 0 + ((d2 hwf2).window j 0 : Nat)).toNat = (j 0).val + 1
    rw [hs0, hw0]; omega
  · apply Fin.ext
    show ((d2 hwf2).start j idx1 1 + ((d2 hwf2).window j 1 : Nat)).toNat = (j 1).val
    rw [hs1, hw1]; omega
end second

/-- The two scatters read at row `a`, column `b`. -/
private theorem set_rows_at
    (hwf1 : ScatterDims.WF S6144x4096 S1 S4096 [0] [0] [0] 0)
    (hwf2 : ScatterDims.WF S6144x4096 S1 S2047x4096 [0, 1] [] [0] 0)
    (base : S6144x4096.Idx → α) (cen : S4096.Idx → α) (gen : S2047x4096.Idx → α)
    (idx0 idx1 : IVec S1 32) (h0 : ∀ k, idx0 k = 0#32) (h1 : ∀ k, idx1 k = 1#32) (a : Fin 6144) (b : Fin 4096) :
    Host.scatter (d2 hwf2) (fun _ b => b) (Host.scatter (d1 hwf1) (fun _ b => b) base idx0 cen) idx1 gen (ix2 a b)
      = if a.val = 0 then cen (ix1 b)
        else if h : a.val < 2048 then gen (ix2 (⟨a.val - 1, by omega⟩ : Fin 2047) b)
        else base (ix2 a b) := by
  have hg1 : ∀ j, (d1 hwf1).resultIdx? j idx0 = some (g1 j) := fun j => d1_result hwf1 j idx0 h0
  have hg2 : ∀ j, (d2 hwf2).resultIdx? j idx1 = some (g2 j) := fun j => d2_result hwf2 j idx1 h1
  by_cases ha0 : a.val = 0
  · rw [if_pos ha0]
    have hmiss : ∀ j, g2 j ≠ ix2 a b := by
      intro j h
      have : (j 0).val + 1 = a.val := congrArg (fun f : S6144x4096.Idx => (f 0).val) h
      omega
    rw [LibScatterSet.scatter_set_miss (d2 hwf2) _ idx1 gen g2 hg2 (ix2 a b) hmiss]
    have ha : a = 0 := Fin.ext ha0
    subst ha
    exact LibScatterSet.scatter_set_hit (d1 hwf1) base idx0 cen g1 hg1 g1_injective (ix1 b)
  · rw [if_neg ha0]
    by_cases ha : a.val < 2048
    · rw [dif_pos ha]
      have e : ix2 a b = g2 (ix2 (⟨a.val - 1, by omega⟩ : Fin 2047) b) := by
        show ix2 a b = ix2 (⟨a.val - 1 + 1, _⟩ : Fin 6144) b
        congr 1
        apply Fin.ext
        show a.val = a.val - 1 + 1
        omega
      exact (congrArg _ e).trans
        (LibScatterSet.scatter_set_hit (d2 hwf2) _ idx1 gen g2 hg2 g2_injective (ix2 (⟨a.val - 1, by omega⟩ : Fin 2047) b))
    · rw [dif_neg ha]
      have hmiss2 : ∀ j, g2 j ≠ ix2 a b := by
        intro j h
        have : (j 0).val + 1 = a.val := congrArg (fun f : S6144x4096.Idx => (f 0).val) h
        have := idx2_lt0 j
        omega
      have hmiss1 : ∀ j, g1 j ≠ ix2 a b := by
        intro j h
        have : (0 : Nat) = a.val := congrArg (fun f : S6144x4096.Idx => (f 0).val) h
        omega
      rw [LibScatterSet.scatter_set_miss (d2 hwf2) _ idx1 gen g2 hg2 (ix2 a b) hmiss2,
        LibScatterSet.scatter_set_miss (d1 hwf1) base idx0 cen g1 hg1 (ix2 a b) hmiss1]

/-- Row 0 set to `cen`, then rows 1 .. 2047 set to `gen`, over `base`, at element `i`. -/
theorem set_rows_apply
    (hwf1 : ScatterDims.WF S6144x4096 S1 S4096 [0] [0] [0] 0)
    (hwf2 : ScatterDims.WF S6144x4096 S1 S2047x4096 [0, 1] [] [0] 0)
    (base : S6144x4096.Idx → α) (cen : S4096.Idx → α) (gen : S2047x4096.Idx → α)
    (idx0 idx1 : IVec S1 32) (h0 : ∀ k, idx0 k = 0#32) (h1 : ∀ k, idx1 k = 1#32) (i : S6144x4096.Idx) :
    Host.scatter (⟨[0, 1], [], [0], 0, hwf2⟩ : ScatterDims S6144x4096 S1 S2047x4096) (fun _ b => b)
        (Host.scatter (⟨[0], [0], [0], 0, hwf1⟩ : ScatterDims S6144x4096 S1 S4096) (fun _ b => b) base idx0 cen) idx1 gen i
      = if (i 0).val = 0 then cen (ix1 (i 1))
        else if h : (i 0).val < 2048 then gen (ix2 (⟨(i 0).val - 1, by omega⟩ : Fin 2047) (i 1))
        else base i := by
  obtain ⟨a, b, rfl⟩ : ∃ (a : Fin 6144) (b : Fin 4096), i = ix2 a b := ⟨i 0, i 1, eq_ix2 i⟩
  exact set_rows_at hwf1 hwf2 base cen gen idx0 idx1 h0 h1 a b

end Cert.ScatterRows

end
-- ==== Proof.RefValue.lean ====
/-
  The reference's staged result, read at the ideal instance, is the specification `Spec.G`: each stage is the
  column function of the column's centre and absolute sum, the two set-scatters put the centre in row 0 and the scaled
  generators in rows 1 .. 2047, and the accumulating scatter puts column j's new error term in row 2048 + (number of
  crossing columns before j), which is a row of the block because that number is below 4096.
-/
import proofs.«129838_j46454366273944_1_alg».proof.Proof.Gen.ReferenceIdeal
import proofs.«129838_j46454366273944_1_alg».proof.Proof.RefTerm
import proofs.«129838_j46454366273944_1_alg».proof.Proof.Spec
import proofs.«129838_j46454366273944_1_alg».proof.Proof.LibCumsum
import proofs.«129838_j46454366273944_1_alg».proof.Proof.ScatterRows
import proofs.«129838_j46454366273944_1_alg».proof.Proof.ScatterCols
import Idealize.ShloMosaic.PureOps.Ideal.Laws
import Idealize.ShloMosaic.Lib.ValueIdx
import Idealize.ShloMosaic.Lib.ValueLayout
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx

/-! ## The two column quantities: the centre and the absolute sum of the generators -/

/-- Row 0 as a vector, at column `j`, is the centre of column `j`. -/
private theorem row0_apply (x : FVec Ideal S2048x4096 .f32) (j : Fin 4096) :
    RefTerm.row0 x (ix1 j) = Spec.x0 x j := by
  unfold RefTerm.row0 Spec.x0
  rw [shapeCast_1a_a_apply]
  exact slice2_axis0_apply 0 x _ (0 : Fin 1) j (⟨0, by decide⟩ : Fin 2048) rfl

/-- Rows 1 .. 2047 at `(k, j)` is the input at `(k + 1, j)`. -/
private theorem gensIn_apply (x : FVec Ideal S2048x4096 .f32) (k : Fin 2047) (j : Fin 4096) :
    RefTerm.gensIn x (ix2 k j) = x (ix2 (⟨k.val + 1, by omega⟩ : Fin 2048) j) := by
  unfold RefTerm.gensIn
  exact slice2_axis0_apply 1 x _ k j (⟨k.val + 1, by omega⟩ : Fin 2048) (Nat.add_comm _ _)

/-- The reduction over the row axis from 0 is the sum over the 2047 generator rows of the absolute values. -/
private theorem asum_apply (x : FVec Ideal S2048x4096 .f32) (j : Fin 4096) :
    RefTerm.asum x (ix1 j) = Spec.asum x j := by
  have hR : S2047x4096.Reduces [0] S4096 := by decide
  have key : ∀ k : Fin 2047, Host.absf (RefTerm.gensIn x) (hR.lift (ix1 j) k)
      = max (x (ix2 (⟨k.val + 1, by omega⟩ : Fin 2048) j)) (-(x (ix2 (⟨k.val + 1, by omega⟩ : Fin 2048) j))) := by
    intro k
    have hl : hR.lift (ix1 j) k = ix2 k j := by
      funext a
      match a with
      | ⟨0, _⟩ => exact Fin.ext rfl
      | ⟨1, _⟩ => exact Fin.ext rfl
    rw [hl]
    show max (RefTerm.gensIn x (ix2 k j)) (-(RefTerm.gensIn x (ix2 k j))) = _
    rw [gensIn_apply]
  unfold RefTerm.asum Spec.asum
  rw [hostReduceAdd_apply, Ideal.hostReduceAdd_single _ hR]
  show Ideal.ofBits .f32 0x00000000#32 + _ = _
  rw [Ideal.ofBits_zero_f32, zero_add]
  exact Finset.sum_congr rfl fun k _ => key k

private theorem row0_eq (x : FVec Ideal S2048x4096 .f32) : RefTerm.row0 x = fun i => Spec.x0 x (i 0) := by
  funext i
  obtain ⟨j, rfl⟩ : ∃ j : Fin 4096, i = ix1 j := ⟨i 0, eq_ix1 i⟩
  exact row0_apply x j

private theorem asum_eq (x : FVec Ideal S2048x4096 .f32) : RefTerm.asum x = fun i => Spec.asum x (i 0) := by
  funext i
  obtain ⟨j, rfl⟩ : ∃ j : Fin 4096, i = ix1 j := ⟨i 0, eq_ix1 i⟩
  exact asum_apply x j

/-! ## The stages, each the column function of the centre and the absolute sum -/

/-- A rank-0 float constant broadcast over the columns is the constant at every column. -/
private theorem bc_eq (w : BitVec 32) : RefTerm.bc (F := Ideal) w = fun _ => Ideal.ofBits .f32 w := by
  funext i
  unfold RefTerm.bc
  rw [broadcastInDim_scalar_apply]
  rfl

/-- A rank-0 word constant broadcast over the columns is the constant at every column. -/
private theorem bci_eq (w : BitVec 32) : RefTerm.bci w = fun _ => w := by
  funext i
  unfold RefTerm.bci
  rw [broadcastInDim_scalar_apply]
  rfl

/-- The select against a broadcast scalar, at a column. -/
private theorem whereS_eq (c : IVec S4096 1) (a : FVec Ideal S4096 .f32) (w : BitVec 32) :
    RefTerm.whereS c a (constant S_ .f32 w) = fun i => Scalar.select (c i) (a i) (Ideal.ofBits .f32 w) := by
  funext i
  unfold RefTerm.whereS
  rw [select_apply, broadcastInDim_scalar_apply]
  rfl

private theorem upper_eq (x : FVec Ideal S2048x4096 .f32) :
    RefTerm.upper x = fun i => Spec.up (Spec.x0 x (i 0)) (Spec.asum x (i 0)) := by
  unfold RefTerm.upper; rw [row0_eq, asum_eq]; rfl

private theorem lower_eq (x : FVec Ideal S2048x4096 .f32) :
    RefTerm.lower x = fun i => Spec.lo (Spec.x0 x (i 0)) (Spec.asum x (i 0)) := by
  unfold RefTerm.lower; rw [row0_eq, asum_eq]; rfl

private theorem crossB_eq (x : FVec Ideal S2048x4096 .f32) :
    RefTerm.crossB x = fun i => Spec.crossB (Spec.x0 x (i 0)) (Spec.asum x (i 0)) := by
  unfold RefTerm.crossB; rw [lower_eq, upper_eq, bc_eq]; rfl

private theorem posB_eq (x : FVec Ideal S2048x4096 .f32) :
    RefTerm.posB x = fun i => Spec.posB (Spec.x0 x (i 0)) (Spec.asum x (i 0)) := by
  unfold RefTerm.posB; rw [lower_eq, bc_eq]; rfl

private theorem crossf_eq (x : FVec Ideal S2048x4096 .f32) :
    RefTerm.crossf x = fun i => Spec.crossf (Spec.x0 x (i 0)) (Spec.asum x (i 0)) := by
  unfold RefTerm.crossf; rw [crossB_eq]; rfl

private theorem posf_eq (x : FVec Ideal S2048x4096 .f32) :
    RefTerm.posf x = fun i => Spec.posf (Spec.x0 x (i 0)) (Spec.asum x (i 0)) := by
  unfold RefTerm.posf; rw [posB_eq]; rfl

private theorem denom_eq (x : FVec Ideal S2048x4096 .f32) :
    RefTerm.denom x = fun i => Spec.den (Spec.x0 x (i 0)) (Spec.asum x (i 0)) := by
  unfold RefTerm.denom; rw [lower_eq, upper_eq]; rfl

private theorem safe_eq (x : FVec Ideal S2048x4096 .f32) :
    RefTerm.safe x = fun i => Spec.safeB (Spec.x0 x (i 0)) (Spec.asum x (i 0)) := by
  unfold RefTerm.safe; rw [denom_eq, bc_eq]; rfl

private theorem quot_eq (x : FVec Ideal S2048x4096 .f32) :
    RefTerm.quot x = fun i => Spec.quot (Spec.x0 x (i 0)) (Spec.asum x (i 0)) := by
  unfold RefTerm.quot RefTerm.quot0 RefTerm.denomSafe
  rw [whereS_eq, whereS_eq, safe_eq, denom_eq, upper_eq]; rfl

private theorem lam_eq (x : FVec Ideal S2048x4096 .f32) :
    RefTerm.lam x = fun i => Spec.lam (Spec.x0 x (i 0)) (Spec.asum x (i 0)) := by
  unfold RefTerm.lam; rw [posf_eq, crossf_eq, quot_eq]; rfl

private theorem delta_eq (x : FVec Ideal S2048x4096 .f32) :
    RefTerm.delta x = fun i => Spec.delta (Spec.x0 x (i 0)) (Spec.asum x (i 0)) := by
  unfold RefTerm.delta; rw [lam_eq, lower_eq, upper_eq, bc_eq]; rfl

private theorem center_eq (x : FVec Ideal S2048x4096 .f32) :
    RefTerm.center x = fun i => Spec.centerA x (i 0) := by
  unfold RefTerm.center; rw [delta_eq, lam_eq, crossf_eq, posf_eq, row0_eq, bc_eq]; rfl

private theorem scale_eq (x : FVec Ideal S2048x4096 .f32) :
    RefTerm.scale x = fun i => Spec.scaleA x (i 0) := by
  unfold RefTerm.scale; rw [lam_eq, crossf_eq, posf_eq]; rfl

private theorem newval_eq (x : FVec Ideal S2048x4096 .f32) :
    RefTerm.newval x = fun i => Spec.newvalA x (i 0) := by
  unfold RefTerm.newval; rw [delta_eq, crossf_eq, bc_eq]; rfl

private theorem ci_eq (x : FVec Ideal S2048x4096 .f32) : RefTerm.ci x = Spec.ciA x := by
  unfold RefTerm.ci; rw [crossB_eq]; rfl

private theorem cum_eq (v : IVec S4096 32) : RefTerm.cum v = Spec.cum v := rfl

/-! ## The rows of the new error terms -/

/-- The crossing flag as a word is 0 or 1. -/
private theorem ciA_bit (x : FVec Ideal S2048x4096 .f32) (k : S4096.Idx) :
    Spec.ciA x k = 0#32 ∨ Spec.ciA x k = 1#32 := by
  show (Spec.crossB _ _).setWidth 32 = 0#32 ∨ (Spec.crossB _ _).setWidth 32 = 1#32
  rcases BitVec.eq_zero_or_eq_one (Spec.crossB (Spec.x0 x (k 0)) (Spec.asum x (k 0))) with h | h <;> rw [h] <;> decide

/-- The number of crossing columns before a column is below 4096. -/
private theorem lr_lt (x : FVec Ideal S2048x4096 .f32) (j : S4096.Idx) : (Spec.lr x j).toNat < 4096 :=
  LibCumsum.excl_lt (Spec.ciA x) (ciA_bit x) (fun _ => 0#32) (fun _ => rfl) (by decide) (by decide) j

/-- The row word is 2048 plus that number: (2048 + c) - v = 2048 + (c - v) on words. -/
private theorem rows_apply (x : FVec Ideal S2048x4096 .f32) (i : S4096.Idx) :
    RefTerm.rows x i = 2048#32 + Spec.lr x i := by
  unfold RefTerm.rows
  rw [ci_eq, cum_eq, bci_eq]
  show (2048#32 + Spec.cum (Spec.ciA x) i) - Spec.ciA x i = 2048#32 + (Spec.cum (Spec.ciA x) i - Spec.ciA x i)
  rw [BitVec.sub_eq_add_neg, BitVec.sub_eq_add_neg, BitVec.add_assoc]

/-- A word 2048 + l with l below 4096 is that natural number as a signed integer. -/
private theorem toInt_2048_add (l : BitVec 32) (h : l.toNat < 4096) :
    (2048#32 + l).toInt = ((2048 + l.toNat : Nat) : Int) := by
  have hn : (2048#32 + l).toNat = 2048 + l.toNat := by
    rw [BitVec.toNat_add]
    show (2048 + l.toNat) % 2 ^ 32 = _
    omega
  rw [BitVec.toInt_eq_toNat_of_lt (by rw [hn]; omega), hn]

private theorem rows_toInt (x : FVec Ideal S2048x4096 .f32) (i : S4096.Idx) :
    (RefTerm.rows x i).toInt = ((2048 + (Spec.lr x i).toNat : Nat) : Int) := by
  rw [rows_apply, toInt_2048_add _ (lr_lt x i)]

/-- The index normalisation leaves a non-negative word alone. -/
private theorem norm_apply (n : BitVec 32) (v : IVec S4096 32) (i : S4096.Idx) (h : 0 ≤ (v i).toInt) :
    RefTerm.norm n v i = v i := by
  unfold RefTerm.norm
  rw [bci_eq, bci_eq]
  exact ScatterCols.norm_nonneg n (v i) h

/-! ## The scaled generators at an element -/

/-- The scale vector laid along every generator row: at `(k, C)` the generator `x (k + 1, C)` times column `C`'s scale. -/
private theorem gens_apply (x : FVec Ideal S2048x4096 .f32) (k : Fin 2047) (C : Fin 4096) :
    RefTerm.gens x (ix2 k C) = x (ix2 (⟨k.val + 1, by omega⟩ : Fin 2048) C) * Spec.scaleA x C := by
  unfold RefTerm.gens
  rw [mulf_apply, gensIn_apply]
  refine congrArg (_ * ·) ?_
  rw [broadcastInDim_apply ![0, 1] _ _ (ix2 k C) (ix2 (0 : Fin 1) C) (by
    intro a
    match a with
    | ⟨0, _⟩ => rfl
    | ⟨1, _⟩ => rfl)]
  rw [broadcastInDim_apply ![1] _ _ (ix2 (0 : Fin 1) C) (ix1 C) (by
    intro a
    match a with
    | ⟨0, _⟩ => rfl)]
  rw [scale_eq]

/-! ## The three scatters -/

private theorem center_apply (x : FVec Ideal S2048x4096 .f32) (C : Fin 4096) :
    RefTerm.center x (ix1 C) = Spec.centerA x C := by rw [center_eq]

private theorem newval_apply (x : FVec Ideal S2048x4096 .f32) (C : Fin 4096) :
    RefTerm.newval x (ix1 C) = Spec.newvalA x C := by rw [newval_eq]

/-- The operand of the scatters is zero everywhere. -/
private theorem base_apply (i : S6144x4096.Idx) :
    broadcastInDim S6144x4096 ![] Gen.bcast_S_S6144x4096 (constant (F := Ideal) S_ .f32 0x00000000#32) i = 0 := by
  rw [broadcastInDim_scalar_apply]
  exact Ideal.ofBits_zero_f32

/-- After the two set-scatters: the new centre in row 0, the scaled generators in rows 1 .. 2047, zero below. -/
private theorem out2_apply (x : FVec Ideal S2048x4096 .f32) (R : Fin 6144) (C : Fin 4096) :
    RefTerm.out2 x (ix2 R C) = if R.val = 0 then Spec.centerA x C
      else if h : R.val < 2048 then x (ix2 (⟨R.val, h⟩ : Fin 2048) C) * Spec.scaleA x C else 0 := by
  have h0 : ∀ k, broadcastInDim S1 ![] Gen.bcast_S_S1 (constantI S_ 32 0#32) k = 0#32 := fun k => by
    rw [broadcastInDim_scalar_apply]; rfl
  have h1 : ∀ k, broadcastInDim S1 ![] Gen.bcast_S_S1 (constantI S_ 32 1#32) k = 1#32 := fun k => by
    rw [broadcastInDim_scalar_apply]; rfl
  refine (ScatterRows.set_rows_apply Gen.scatter_S6144x4096_S1_S4096_0_0_0_0_wf Gen.scatter_S6144x4096_S1_S2047x4096_01_n_0_0_wf
    _ (RefTerm.center x) (RefTerm.gens x) _ _ h0 h1 (ix2 R C)).trans ?_
  show (if R.val = 0 then RefTerm.center x (ix1 C)
    else if h : R.val < 2048 then RefTerm.gens x (ix2 (⟨R.val - 1, by omega⟩ : Fin 2047) C) else _) = _
  by_cases hR0 : R.val = 0
  · rw [if_pos hR0, if_pos hR0, center_apply]
  · rw [if_neg hR0, if_neg hR0]
    by_cases hR : R.val < 2048
    · rw [dif_pos hR, dif_pos hR, gens_apply]
      refine congrArg (fun r : Fin 2048 => x (ix2 r C) * Spec.scaleA x C) (Fin.ext ?_)
      show R.val - 1 + 1 = R.val
      omega
    · rw [dif_neg hR, dif_neg hR]
      exact base_apply _

/-- The row of column `j`'s new error term. -/
private def rowOf (x : FVec Ideal S2048x4096 .f32) (j : Fin 4096) : Fin 6144 :=
  ⟨2048 + (Spec.lr x (ix1 j)).toNat, by have := lr_lt x (ix1 j); omega⟩

/-- The result is the accumulating scatter of the new error terms at the (row, column) pairs into the two set-scatters' result. -/
private theorem refOut_def (x : FVec Ideal S2048x4096 .f32) :
    RefTerm.refOut x = Ideal.hostScatterAdd
      (⟨[], [0, 1], [0, 1], 1, Gen.scatter_S6144x4096_S4096x2_S4096_n_01_01_1_wf⟩ : ScatterDims S6144x4096 S4096x2 S4096)
      (RefTerm.out2 x) (RefTerm.idx2 (RefTerm.norm 6144#32 (RefTerm.rows x)) (RefTerm.norm 4096#32 (iotaInDim S4096 32 0)))
      (RefTerm.newval x) := rfl

/-- After the accumulating scatter: column `C`'s new error term is added in its row, nothing elsewhere. -/
private theorem refOut_apply (x : FVec Ideal S2048x4096 .f32) (R : Fin 6144) (C : Fin 4096) :
    RefTerm.refOut x (ix2 R C)
      = RefTerm.out2 x (ix2 R C) + (if rowOf x C = R then Spec.newvalA x C else 0) := by
  have hr : ∀ j : Fin 4096, (RefTerm.idx2 (RefTerm.norm 6144#32 (RefTerm.rows x))
      (RefTerm.norm 4096#32 (iotaInDim S4096 32 0)) (ix2 j (⟨0, by decide⟩ : Fin 2))).toInt = ((rowOf x j).val : Int) := fun j => by
    unfold RefTerm.idx2
    rw [ScatterCols.pairs_row, norm_apply _ _ _ (by rw [rows_toInt]; exact Int.natCast_nonneg _), rows_toInt]
    rfl
  have hc : ∀ j : Fin 4096, (RefTerm.idx2 (RefTerm.norm 6144#32 (RefTerm.rows x))
      (RefTerm.norm 4096#32 (iotaInDim S4096 32 0)) (ix2 j (⟨1, by decide⟩ : Fin 2))).toInt = (j.val : Int) := fun j => by
    unfold RefTerm.idx2
    rw [ScatterCols.pairs_col, norm_apply _ _ _ (by rw [ScatterCols.iota_toInt]; exact Int.natCast_nonneg _),
      ScatterCols.iota_toInt]
  rw [refOut_def, ← newval_apply]
  exact ScatterCols.scatterAdd_pairs (N := 6144) Gen.scatter_S6144x4096_S4096x2_S4096_n_01_01_1_wf (RefTerm.out2 x) _
    (RefTerm.newval x) (rowOf x) hr hc R C

/-- The reference's result is the specification, whatever the input (no finiteness is used on this side). -/
theorem refOut_eq (x : FVec Ideal S2048x4096 .f32) : RefTerm.refOut (F := Ideal) x = Spec.G x := by
  funext i
  obtain ⟨R, C, rfl⟩ : ∃ (R : Fin 6144) (C : Fin 4096), i = ix2 R C := ⟨i 0, i 1, eq_ix2 i⟩
  rw [refOut_apply, out2_apply]
  show _ = (if h : R.val < 2048 then Spec.mainA x (ix2 (⟨R.val, h⟩ : Fin 2048) C)
    else if (Spec.lr x (ix1 C)).toNat + 2048 = R.val then Spec.newvalA x C else 0)
  have hl := lr_lt x (ix1 C)
  have hrow : (rowOf x C).val = 2048 + (Spec.lr x (ix1 C)).toNat := rfl
  by_cases hR0 : R.val = 0
  · have hlt : R.val < 2048 := by omega
    rw [if_pos hR0, dif_pos hlt, if_neg (fun h => by have := congrArg Fin.val h; omega), add_zero]
    show _ = (if R.val = 0 then Spec.centerA x C else _)
    rw [if_pos hR0]
  · by_cases hR : R.val < 2048
    · rw [if_neg hR0, dif_pos hR, dif_pos hR, if_neg (fun h => by have := congrArg Fin.val h; omega), add_zero]
      show _ = (if R.val = 0 then _ else x (ix2 (⟨R.val, hR⟩ : Fin 2048) C) * Spec.scaleA x C)
      rw [if_neg hR0]
    · rw [if_neg hR0, dif_neg hR, dif_neg hR, zero_add]
      refine if_congr ⟨fun h => ?_, fun h => Fin.ext ?_⟩ rfl rfl
      · have := congrArg Fin.val h; omega
      · omega

end Cert.ReferenceIdeal.RefValue

end
-- ==== Proof.Finite.lean ====
/-
  From the precondition to the fact used by the kernel's side: the precondition says that the conjunction over all
  entries of |x| < +infinity is true; so every entry of the argument array is a real number.
-/
import proofs.«129838_j46454366273944_1_alg».proof.Defs
import proofs.«129838_j46454366273944_1_alg».proof.Proof.Gen.Pre_finite_inputs
import proofs.«129838_j46454366273944_1_alg».proof.Proof.Gen.KernelIdeal
import Idealize.ShloMosaic.Lib.ReduceAll
import Idealize.ShloMosaic.PureOps.Ideal.Laws
import Idealize.ShloMosaic.Lib.ValueIdx

noncomputable section

open scoped BigOperators

namespace Cert.Finite

open Idealize.ShloMosaic Idealize.SL.Sem Idealize.ShloMosaic.ValueIdx

/-- An extended real whose absolute value is strictly below +∞ is a real number. -/
private theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  have hlt : max x (-x) < (⊤ : EReal) := by
    by_contra hn
    simp [Ideal.cmp, hn] at h
  induction x using EReal.rec with
  | bot => simp at hlt
  | top => simp at hlt
  | coe r => exact ⟨r, rfl⟩

/-- Under the kernel program's precondition every entry of its argument is a real number. -/
theorem real_of_pre (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S2048x4096.Idx) :
    ∃ r : ℝ, m ((c.tc : Thread Cert.KernelIdeal.nD Cert.KernelIdeal.τ).loc Cert.KernelIdeal.main_arg0) i = (r : EReal) := by
  have h := congrFun (hpre c) ValueIdx.ix0
  dsimp only [Cert.Pre_finite_inputs.fn] at h
  haveI : Subsingleton Cert.Pre_finite_inputs.S_.Idx := ⟨fun a b => funext fun d => d.elim0⟩
  have hi := Host.reduce_andi_all _ _ _ _ _ h i
  dsimp only [cmpf, Host.absf, broadcastInDim, constant] at hi
  exact real_of_abs_lt _ hi

end Cert.Finite

end
-- ==== Proof.lean ====
/-
  The certificate: both programs compute `Spec.G` of the argument.

  The kernel computes, per block of 512 columns, each column's bounds from its centre and the absolute sum of its
  generators (taken as the absolute sum of all rows less the centre's absolute value, which is the same for a real
  centre), the crossing and positive flags, the slope and delta, and writes the new centre, the scaled generators,
  the new error terms and the crossing flags; its host tail counts the crossing columns before each column and
  scatters the new error terms into a block of zeros appended below. The reference does the same arithmetic on whole
  columns and scatters into the full result at row 2048 + that count. The count is below 4096, so both scatters land
  inside their blocks on distinct elements, and the two results agree element by element (`Spec.G`).
  The frames of the two kernel programs are the generated ones; the reference's frame is its run with the result
  dropped; the idealization rewrote nothing, so `preserves` is trivial.
-/
import proofs.«129838_j46454366273944_1_alg».proof.Defs
import proofs.«129838_j46454366273944_1_alg».proof.Proof.Gen.Kernel
import proofs.«129838_j46454366273944_1_alg».proof.Proof.Gen.Kernel.Frame
import proofs.«129838_j46454366273944_1_alg».proof.Proof.Gen.KernelIdeal
import proofs.«129838_j46454366273944_1_alg».proof.Proof.Gen.KernelIdeal.Frame
import proofs.«129838_j46454366273944_1_alg».proof.Proof.Gen.ReferenceIdeal
import proofs.«129838_j46454366273944_1_alg».proof.Proof.Gen.Pre_finite_inputs
import proofs.«129838_j46454366273944_1_alg».proof.Proof.KerRun
import proofs.«129838_j46454366273944_1_alg».proof.Proof.RefRun
import proofs.«129838_j46454366273944_1_alg».proof.Proof.RefValue
import proofs.«129838_j46454366273944_1_alg».proof.Proof.Finite

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- Both runs end at `Spec.G` of the (agreeing) argument. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)),
    Cert.KernelIdeal.KerRun.run m ρ (Cert.Finite.real_of_pre m hpre), ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
